-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S16x1024x4096 : Shape := ⟨3, ![16, 1024, 4096]⟩
abbrev S16x4096 : Shape := ⟨2, ![16, 4096]⟩
abbrev S64x1 : Shape := ⟨2, ![64, 1]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg3 : IVec S64x1 32) (main_v13 : IVec S_ 1) (main_v15 : IVec S64x1 1) (main_c_5 : IVec S_ 1) : IVec S_ 1 :=
  let main_v16 : IVec S_ 1 := (fun x v => Host.reduce IntOp.andi x v reducesTo_S64x1_S_d0_1 h_S_) main_v15 main_c_5
  let main_v17 : IVec S_ 1 := andi main_v13 main_v16
  let main_c_6 : IVec S_ 32 := constantI S_ 32 16#32
  let main_v18 : IVec S64x1 32 := broadcastInDim S64x1 ![] bcast_S_S64x1 main_c_6
  let main_v19 : IVec S64x1 1 := cmpi .slt main_arg3 main_v18
  let main_c_7 : IVec S_ 1 := constantI S_ 1 1#1
  let main_v20 : IVec S_ 1 := (fun x v => Host.reduce IntOp.andi x v reducesTo_S64x1_S_d0_1 h_S_) main_v19 main_c_7
  let main_v21 : IVec S_ 1 := andi main_v17 main_v20
  main_v21

def fn {F : FTy → Type} [FloatOps F] (main_arg0 : FVec F S64x512x1024 .f32) (main_arg1 : FVec F S16x1024x4096 .f32) (main_arg2 : FVec F S16x4096 .f32) (main_arg3 : IVec S64x1 32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S16x1024x4096 .f32 := Host.absf main_arg1
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S64x1 32 := broadcastInDim S64x1 ![] bcast_S_S64x1 main_c_4
  let main_v15 : IVec S64x1 1 := cmpi .sge main_arg3 main_v14
  let main_c_5 : IVec S_ 1 := constantI S_ 1 1#1
  fn_part1 (F := F) main_arg3 main_v13 main_v15 main_c_5
-- ==== Kernel.lean ====
abbrev S64x512x1024 : Shape := ⟨3, ![64, 512, 1024]⟩
abbrev S16x1024x4096 : Shape := ⟨3, ![16, 1024, 4096]⟩
abbrev S16x4096 : Shape := ⟨2, ![16, 4096]⟩
abbrev S64x1 : Shape := ⟨2, ![64, 1]⟩
abbrev S64 : Shape := ⟨1, ![64]⟩
abbrev S_ : Shape := ⟨0, ![]⟩
abbrev S1 : Shape := ⟨1, ![1]⟩
abbrev S1x1 : Shape := ⟨2, ![1, 1]⟩
abbrev S16x1x4096 : Shape := ⟨3, ![16, 1, 4096]⟩
abbrev S64x512x4096 : Shape := ⟨3, ![64, 512, 4096]⟩
abbrev S1x512x1024 : Shape := ⟨3, ![1, 512, 1024]⟩
abbrev S1x1024x2048 : Shape := ⟨3, ![1, 1024, 2048]⟩
abbrev S1x1x2048 : Shape := ⟨3, ![1, 1, 2048]⟩
abbrev S1x512x2048 : Shape := ⟨3, ![1, 512, 2048]⟩
abbrev S512x1024 : Shape := ⟨2, ![512, 1024]⟩
abbrev S1024x2048 : Shape := ⟨2, ![1024, 2048]⟩
abbrev S2048 : Shape := ⟨1, ![2048]⟩
abbrev S512x2048 : Shape := ⟨2, ![512, 2048]⟩
abbrev S1x2048 : Shape := ⟨2, ![1, 2048]⟩

abbrev nBuf : Space → Nat
  | .hbm => 38
  | .vmem => 8
  | .smem => 2
  | _ => 0

abbrev bufTy : (tb : Table) → Fin (tcTables nBuf tb) → BufTy
  | .hbm, ⟨0, _⟩ => ⟨S64x512x1024, .f32⟩
  | .hbm, ⟨1, _⟩ => ⟨S16x1024x4096, .f32⟩
  | .hbm, ⟨2, _⟩ => ⟨S16x4096, .f32⟩
  | .hbm, ⟨3, _⟩ => ⟨S64x1, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S1, .i32⟩
  | .hbm, ⟨24, _⟩ => ⟨S_, .i32⟩
  | .hbm, ⟨25, _⟩ => ⟨S64x1, .i32⟩
  | .hbm, ⟨26, _⟩ => ⟨S64x1, .i1⟩
  | .hbm, ⟨27, _⟩ => ⟨S1x1, .i32⟩
  | .hbm, ⟨28, _⟩ => ⟨S64x1, .i32⟩
  | .hbm, ⟨29, _⟩ => ⟨S64x1, .i1⟩
  | .hbm, ⟨30, _⟩ => ⟨S64x1, .i1⟩
  | .hbm, ⟨31, _⟩ => ⟨S_, .i1⟩
  | .hbm, ⟨32, _⟩ => ⟨S64, .i1⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S16x1x4096, .f32⟩
  | .hbm, ⟨37, _⟩ => ⟨S64x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .smem, ⟨0, _⟩ => ⟨S64, .i32⟩
  | .local _ .smem, ⟨1, _⟩ => ⟨S64, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_call1_v0 : Ref sig .tc := ⟨.hbm, 13, rfl⟩
abbrev main_call1_v1_0 : Ref sig .tc := ⟨.hbm, 14, rfl⟩
abbrev main_call2_c : Ref sig .tc := ⟨.hbm, 15, rfl⟩
abbrev main_call2_v0 : Ref sig .tc := ⟨.hbm, 16, rfl⟩
abbrev main_call2_v1 : Ref sig .tc := ⟨.hbm, 17, rfl⟩
abbrev main_call2_c_0 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_c_1 : Ref sig .tc := ⟨.hbm, 23, rfl⟩
abbrev main_call2_c_2 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_c_3 : Ref sig .tc := ⟨.hbm, 31, rfl⟩
abbrev main_call2_v12 : Ref sig .tc := ⟨.hbm, 32, rfl⟩
abbrev main_call2_v13 : Ref sig .tc := ⟨.hbm, 33, rfl⟩
abbrev main_call2_c_4 : Ref sig .tc := ⟨.hbm, 34, rfl⟩
abbrev main_call2_v14 : Ref sig .tc := ⟨.hbm, 35, rfl⟩
abbrev main_v4 : Ref sig .tc := ⟨.hbm, 36, rfl⟩
abbrev main_v5 : Ref sig .tc := ⟨.hbm, 37, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  shapeCasts_S16x4096_S16x1x4096 : S16x4096.ShapeCasts S16x1x4096
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  gather_S64_S64x1_S64_n_0_n_n_0_1_1_wf : GatherDims.WF S64 S64x1 S64 [] [0] [] [0] [] 1 ![1]
  dot_S512x1024_S1024x2048_S512x2048_1_0_0_1_n_n_wf : DotDims.WF S512x1024 S1024x2048 S512x2048 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x1024x2048.size reads0_1 false false 2 stage0_1 sem0_1 nbuf0_1 hstage0_1

abbrev spec0_2 : Pipeline.WinSpec sig grid0.rank :=
  Pipeline.WinSpec.ofSpec (Memref.whole main_v4) S1x1x2048.size reads0_2 false false 2 stage0_2 sem0_2 nbuf0_2 hstage0_2

abbrev spec0_3 : Pipeline.WinSpec sig grid0.rank :=
  Pipeline.WinSpec.ofSpec (Memref.whole main_v5) S1x512x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S64x512x1024.size a), EltTy.bits .f32 = 32 ∨ (Rect.block (s := S64x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x2048.size a ≤ S16x1024x4096.size a), EltTy.bits .f32 = 32 ∨ (Rect.block (s := S16x1024x4096) S1x1024x2048.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S16x1x4096.size a), EltTy.bits .f32 = 32 ∨ (Rect.block (s := S16x1x4096) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x512x2048.size a ≤ S64x512x4096.size a), EltTy.bits .f32 = 32 ∨ (Rect.block (s := S64x512x4096) S1x512x2048.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S16x1024x4096 : Shape := ⟨3, ![16, 1024, 4096]⟩
abbrev S16x4096 : Shape := ⟨2, ![16, 4096]⟩
abbrev S64x1 : Shape := ⟨2, ![64, 1]⟩
abbrev S64 : Shape := ⟨1, ![64]⟩
abbrev S_ : Shape := ⟨0, ![]⟩
abbrev S64x1024x4096 : Shape := ⟨3, ![64, 1024, 4096]⟩
abbrev S64x4096 : Shape := ⟨2, ![64, 4096]⟩
abbrev S64x512x4096 : Shape := ⟨3, ![64, 512, 4096]⟩
abbrev S64x1x4096 : Shape := ⟨3, ![64, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S16x1024x4096, .f32⟩
  | .hbm, ⟨2, _⟩ => ⟨S16x4096, .f32⟩
  | .hbm, ⟨3, _⟩ => ⟨S64x1, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x1024x4096, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x4096, .f32⟩
  | .hbm, ⟨23, _⟩ => ⟨S64x512x4096, .f32⟩
  | .hbm, ⟨24, _⟩ => ⟨S64x1x4096, .f32⟩
  | .hbm, ⟨25, _⟩ => ⟨S64x512x4096, .f32⟩
  | .hbm, ⟨26, _⟩ => ⟨S64x512x4096, .f32⟩
  | .hbm, ⟨27, _⟩ => ⟨S_, .f32⟩
  | .hbm, ⟨28, _⟩ => ⟨S64x512x4096, .f32⟩
  | .hbm, ⟨29, _⟩ => ⟨S64x512x4096, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x512x4096_0_1_2 : S64x1x4096.BroadcastsInDim S64x512x4096 (![0, 1, 2] : Fin 3 → Fin S64x512x4096.rank)
  bcast_S_S64x512x4096 : S_.BroadcastsInDim S64x512x4096 (![] : Fin 0 → Fin S64x512x4096.rank)
  gather_S16x1024x4096_S64x1_S64x1024x4096_12_0_n_n_0_1_110244096_wf : GatherDims.WF S16x1024x4096 S64x1 S64x1024x4096 [1, 2] [0] [] [0] [] 1 ![1, 1024, 4096]
  gather_S16x4096_S64x1_S64x4096_1_0_n_n_0_1_14096_wf : GatherDims.WF S16x4096 S64x1 S64x4096 [1] [0] [] [0] [] 1 ![1, 4096]
  dot_S64x512x1024_S64x1024x4096_S64x512x4096_2_1_1_2_0_0_wf : DotDims.WF S64x512x1024 S64x1024x4096 S64x512x4096 [2] [1] [1] [2] [0] [0]

variable [Facts₀]

def gather_S16x1024x4096_S64x1_S64x1024x4096_12_0_n_n_0_1_110244096 : GatherDims S16x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S64x1_S64x1024x4096_12_0_n_n_0_1_110244096_wf
def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def dot_S64x512x1024_S64x1024x4096_S64x512x4096_2_1_1_2_0_0 : DotDims S64x512x1024 S64x1024x4096 S64x512x4096 where
  lhsContracting := [2]
  rhsContracting := [1]
  lhsNonContracting := [1]
  rhsNonContracting := [2]
  lhsBatch := [0]
  rhsBatch := [0]
  wf := dot_S64x512x1024_S64x1024x4096_S64x512x4096_2_1_1_2_0_0_wf

class Facts : Prop extends Facts₀ where

variable [Facts]
-- ==== Proof.LibHostRead.lean ====
/-
  Reading back a line of host operations in stages.

  The contents a device's buffers hold after a list of host operations is a fold over the list.  Two facts let a long
  line be read in stages, with the buffers an earlier stage computed kept as names instead of being expanded at each of
  their uses: running `l₁ ++ l₂` is running `l₁` and then `l₂`; and contents moved to a typed reference's own buffer
  type and back are the contents (the operations of a function called from the main program carry such a move at every
  operand and result).
-/
import Idealize.ShloMosaic.Lib.StableHlo.Run

namespace Cert.LibHostRead

open Idealize.ShloMosaic Idealize.ShloMosaic.StableHlo

/-- Running two lines of host operations one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Contents moved to a buffer's own type and back are the contents. -/
theorem ofBuf_toBuf {sig : RefSig} {T : BufTy} {Val : EltTy → Type} (x : TRef sig T) (v : T.Contents Val) :
    x.ofBuf (x.toBuf v) = v := by
  obtain ⟨r, h, hd, hu⟩ := x
  subst h
  rfl

end Cert.LibHostRead
-- ==== Proof.TableTermsBits.lean ====
/-
  The two prefetched tables as terms of the launch memory's index column.

  Before the launch the host clamps the 64 index words into [0, 15] (`keys`), sorts the positions 0 … 63 by their
  clamped word (`permT`: at position p the position the sort puts there), and takes the clamped words through the
  sorted positions (`sortedT`: a take written with its wrap of negative positions and its in-range test, both idle
  for positions that are in 0 … 63).  The region reads exactly these two tables.
-/
import proofs.«402312_j40355512714138_2_alg».proof.Proof.Gen.Kernel.Frame
import proofs.«402312_j40355512714138_2_alg».proof.Proof.LibHostRead
import Idealize.ShloMosaic.Lib.StableHlo.Run

noncomputable section

namespace Cert.Kernel.Tables

open Idealize.ShloMosaic Idealize.ShloMosaic.TcCoe Idealize.SL.Sem Idealize.ShloMosaic.StableHlo
open Cert.Kernel Cert.Kernel.Gen

variable {F : FTy → Type} [FloatOps F]

/-- The index column clamped into [0, 15], as a table of 64 words. -/
def keys (idx : IVec S64x1 32) : IVec S64 32 :=
  minsi (broadcastInDim S64 ![] bcast_S_S64 (constantI S_ 32 15#32))
    (maxsi (broadcastInDim S64 ![] bcast_S_S64 (constantI S_ 32 0#32)) (shapeCast S64 idx shapeCasts_S64x1_S64))

/-- The positions 0 … 63 sorted by their clamped word. -/
def permT (idx : IVec S64x1 32) : IVec S64 32 :=
  (Host.sort2 S64 0 comparator_i32_i32_d0 (keys idx) (iotaInDim S64 32 0)).2

/-- The sorted positions as the column the take reads: a negative position would be wrapped by 64. -/
def posCol (idx : IVec S64x1 32) : IVec S64x1 32 :=
  broadcastInDim S64x1 ![0] bcast_S64_S64x1_0
    (select (cmpi .slt (permT idx) (broadcastInDim S64 ![] bcast_S_S64 (constantI S_ 32 0#32)))
      (addi (permT idx) (broadcastInDim S64 ![] bcast_S_S64 (constantI S_ 32 64#32))) (permT idx))

/-- The take's test that a position lies in 0 … 63. -/
def inRange (idx : IVec S64x1 32) : IVec S64 1 :=
  Host.reduce IntOp.andi
    (andi (cmpi .sge (posCol idx) (broadcastInDim S64x1 ![] bcast_S_S64x1 (constantI S_ 32 0#32)))
      (cmpi .sle (posCol idx) (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- The clamped words taken through the sorted positions. -/
def sortedT (idx : IVec S64x1 32) : IVec S64 32 :=
  select (inRange idx) (Host.gather gather_S64_S64x1_S64_n_0_n_n_0_1_1 (keys idx) (posCol idx))
    (broadcastInDim S64 ![] bcast_S_S64 (constantI S_ 32 2147483648#32))

variable (m : (ℓ : Loc nD τ sig) → Buf (Elt F) ℓ)

/-- The first table the region reads is the sorted positions of the launch memory's index column. -/
theorem tbl0_eq : tbl m 0 = permT (m (((0 : Dev nD) : Thread nD τ).loc main_arg3)) := by
  unfold tbl
  show V m 0 main_v2 = _
  unfold V
  simp only [hostOps0, hostOps0_1, hostOps0_2, hostOps0_3, hostOps0_4, List.flatten_cons, List.flatten_nil, List.append_nil,
    List.cons_append, List.nil_append]
  after_results
  rfl

set_option maxHeartbeats 1000000 in
/-- The second table is the clamped words taken through them.  The line is read in two stages: first up to the
    sort, where the clamped words and the sorted positions are named; then the take, over those two names. -/
theorem tbl1_eq : tbl m 1 = sortedT (m (((0 : Dev nD) : Thread nD τ).loc main_arg3)) := by
  unfold tbl
  show V m 0 main_v3 = _
  unfold V
  rw [show List.flatten [hostOps0, hostOps0_1, hostOps0_2, hostOps0_3, hostOps0_4]
      = (hostOps0 ++ hostOps0_1 ++ hostOps0_2) ++ (hostOps0_3 ++ hostOps0_4 : List (HloOp τ sig (Elt F))) from by
    simp only [List.flatten_cons, List.flatten_nil, List.append_nil, List.append_assoc], Cert.LibHostRead.after_append]
  have hW1 : StableHlo.after (hostOps0 ++ hostOps0_1 ++ hostOps0_2) (fun b => m ((0 : Dev nD), b)) (Proc.devRef .tc main_v1)
      = keys (m (((0 : Dev nD) : Thread nD τ).loc main_arg3)) := by
    simp only [hostOps0, hostOps0_1, hostOps0_2, List.cons_append, List.nil_append]
    after_results
    rfl
  have hW2 : StableHlo.after (hostOps0 ++ hostOps0_1 ++ hostOps0_2) (fun b => m ((0 : Dev nD), b)) (Proc.devRef .tc main_v2)
      = permT (m (((0 : Dev nD) : Thread nD τ).loc main_arg3)) := by
    simp only [hostOps0, hostOps0_1, hostOps0_2, List.cons_append, List.nil_append]
    after_results
    rfl
  generalize StableHlo.after (hostOps0 ++ hostOps0_1 ++ hostOps0_2) (fun b => m ((0 : Dev nD), b)) = W at hW1 hW2 ⊢
  simp only [hostOps0_3, hostOps0_4, List.cons_append, List.nil_append]
  after_results
  simp only [Cert.LibHostRead.ofBuf_toBuf, hW1, hW2]
  unfold sortedT inRange posCol
  rfl

end Cert.Kernel.Tables

end
-- ==== Proof.LibSortedTake.lean ====
/-
  A rank-1 table sorted together with a second table, read position by position.

  Sorting a table of `n` keys carried with a second table (an argsort carries the positions `0, 1, …, n-1`)
  rearranges both tables by ONE self-map `perm` of the positions: position `p` of either sorted table holds what the
  unsorted one held at `perm p`.  Whatever the comparator, `perm` is a bijection of the positions.  So the argsort's
  second result, at `p`, is the word `perm p`.

  Also here: a conjunction over any axes of a mask that is one everywhere, started at one, is one.
-/
import Idealize.ShloMosaic.Lib.SortFacts
import Idealize.ShloMosaic.PureOps.Reduce

noncomputable section

namespace Cert.LibSortedTake

open Idealize.ShloMosaic

variable {α β : Type} {n : Nat}

/-- The sorting self-map of the positions: `perm p` is the position whose pair the sort puts at `p`. -/
def perm (cmp : α × β → α × β → BitVec 1) (x : (⟨1, ![n]⟩ : Shape).Idx → α) (y : (⟨1, ![n]⟩ : Shape).Idx → β) : Fin n → Fin n :=
  sortedFrom (fun k k' => cmp (x (Shape.Idx.ofFin k), y (Shape.Idx.ofFin k)) (x (Shape.Idx.ofFin k'), y (Shape.Idx.ofFin k')) == 1#1)

theorem perm_injective (cmp : α × β → α × β → BitVec 1) (x : (⟨1, ![n]⟩ : Shape).Idx → α) (y : (⟨1, ![n]⟩ : Shape).Idx → β) :
    Function.Injective (perm cmp x y) := sortedFrom_injective _

theorem perm_surjective (cmp : α × β → α × β → BitVec 1) (x : (⟨1, ![n]⟩ : Shape).Idx → α) (y : (⟨1, ![n]⟩ : Shape).Idx → β) :
    Function.Surjective (perm cmp x y) := sortedFrom_surjective _

/-- The first sorted table at `j` is the first table at `perm (j 0)`. -/
theorem sort2_fst (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).1 j = x (Shape.Idx.ofFin (perm cmp x y (j 0))) := by
  unfold Host.sort2 perm
  simp

/-- The second sorted table at `j` is the second table at `perm (j 0)`. -/
theorem sort2_snd (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j = y (Shape.Idx.ofFin (perm cmp x y (j 0))) := by
  unfold Host.sort2 perm
  simp

/-- An argsort: the positions carried through the sort. At position `p` the result is the word `perm p`. -/
theorem argsort_apply {w : Nat} (cmp : α × BitVec w → α × BitVec w → BitVec 1) (x : (⟨1, ![n]⟩ : Shape).Idx → α) (p : Fin n) :
    (Host.sort2 ⟨1, ![n]⟩ 0 cmp x (iotaInDim ⟨1, ![n]⟩ w 0)).2 (Shape.Idx.ofFin p)
      = BitVec.ofNat w (perm cmp x (iotaInDim ⟨1, ![n]⟩ w 0) p).val := by
  rw [sort2_snd, Shape.Idx.ofFin_zero]
  rfl

/-- A left fold by `and` over ones leaves its start. -/
theorem foldl_andi_ones {ι : Type} (x : ι → BitVec 1) (hx : ∀ i, x i = 1#1) (l : List ι) (r : BitVec 1) :
    l.foldl (fun r i => IntOp.andi r (x i)) r = r := by
  induction l generalizing r with
  | nil => rfl
  | cons a l ih =>
    rw [List.foldl_cons, hx a, show IntOp.andi r 1#1 = r from by revert r; decide]
    exact ih r

/-- A conjunction (a reduce by `and`) of a mask that is one at every index, started at one, is one at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _ _

end Cert.LibSortedTake

end
-- ==== Proof.TablesBits.lean ====
/-
  The two prefetched tables read position by position, and the launch's side condition.

  Write `c a` for index word `a` clamped into [0, 15] and `σ` for the self-map of the positions 0 … 63 by which the
  host sorts them (a bijection, whatever the words are).  Then the first table holds, at position p, the word `σ p`,
  and the second holds `c (σ p)`: the take through the sorted positions wraps nothing and drops nothing, because every
  sorted position is in 0 … 63.  So the first table's words are below 64 and the second's below 16, which is all the
  launch asks: each block the index maps name lies inside its array.
-/
import proofs.«402312_j40355512714138_2_alg».proof.Proof.TableTermsBits
import proofs.«402312_j40355512714138_2_alg».proof.Proof.LibSortedTake
import Idealize.ShloMosaic.Lib.StableHlo.Predicate
import Idealize.ShloMosaic.Lib.Pipeline.Value

noncomputable section

namespace Cert.Kernel.Tables

open Idealize.ShloMosaic Idealize.ShloMosaic.TcCoe Idealize.SL.Sem Idealize.ShloMosaic.StableHlo
open Idealize.ShloMosaic.StableHlo.Predicate
open Cert.Kernel Cert.Kernel.Gen

variable {F : FTy → Type} [FloatOps F]

/-! ## Words -/

theorem toInt15 : (15#32 : BitVec 32).toInt = 15 := by decide
theorem toInt0 : (0#32 : BitVec 32).toInt = 0 := by decide

/-- A word clamped into [0, 15] is below 16. -/
theorem clip_lt (v : BitVec 32) : (IntOp.minsi 15#32 (IntOp.maxsi 0#32 v)).toNat < 16 := by
  unfold IntOp.minsi IntOp.maxsi
  by_cases hc : v.slt 0#32 = true
  · rw [if_pos hc, if_neg (by decide)]; decide
  · rw [if_neg hc]
    by_cases hd : (15#32 : BitVec 32).slt v = true
    · rw [if_pos hd]; decide
    · rw [if_neg hd]
      simp only [BitVec.slt, toInt0, toInt15, decide_eq_true_eq] at hc hd
      have hv := v.isLt
      unfold BitVec.toInt at hc hd
      split at hc <;> omega

/-- A word already in [0, 15] is its own clamp. -/
theorem clip_id (v : BitVec 32) (h : v.toNat < 16) : IntOp.minsi 15#32 (IntOp.maxsi 0#32 v) = v := by
  have hmax : IntOp.maxsi 0#32 v = v := by
    unfold IntOp.maxsi
    refine if_neg fun hc => ?_
    have := (slt_bool_iff_toNat (a := v) (b := 0#32) (by omega) (by decide)).mp ((ofBool_eq_one_iff _).mpr hc)
    simp at this
  have h15 : (15#32 : BitVec 32).toNat = 15 := rfl
  rw [hmax]
  unfold IntOp.minsi
  refine if_neg fun hc => ?_
  have := (slt_bool_iff_toNat (a := 15#32) (b := v) (by decide) (by omega)).mp ((ofBool_eq_one_iff _).mpr hc)
  omega

/-- A small natural number as a word is not negative: a select on "negative" keeps its last operand. -/
theorem select_nonneg (k : Nat) (hk : k < 64) (v' : BitVec 32) :
    Scalar.select (IntOp.cmpi .slt (BitVec.ofNat 32 k) 0#32) v' (BitVec.ofNat 32 k) = BitVec.ofNat 32 k := by
  refine if_neg fun h => ?_
  have hk' : (BitVec.ofNat 32 k).toNat = k := by rw [BitVec.toNat_ofNat]; exact Nat.mod_eq_of_lt (by omega)
  have := (slt_iff_toNat (a := BitVec.ofNat 32 k) (b := 0#32) (by rw [hk']; omega) (by decide)).mp h
  simp at this

/-- Every index of a [64, 1] column is (its row, 0). -/
theorem col_eta (i : S64x1.Idx) : i = ixP (i 0) := by
  funext b
  match b with
  | ⟨0, _⟩ => rfl
  | ⟨1, _⟩ => exact Subsingleton.elim (α := Fin 1) _ _

/-! ## The tables' terms at a position -/

/-- The clamped word of row p. -/
theorem keys_apply (idx : IVec S64x1 32) (p : Fin 64) :
    keys idx (Shape.Idx.ofFin p) = IntOp.minsi 15#32 (IntOp.maxsi 0#32 (idx (ixP p))) := by
  have e : shapeCast S64 idx shapeCasts_S64x1_S64 (Shape.Idx.ofFin p) = idx (ixP p) :=
    shapeCast_apply idx shapeCasts_S64x1_S64 _ _ (by
      rewrite [Shape.rowMajor_val_two, Shape.rowMajor_val_one]
      show p.val * 1 + 0 = p.val
      omega)
  unfold keys
  show IntOp.minsi 15#32 (IntOp.maxsi 0#32 (shapeCast S64 idx shapeCasts_S64x1_S64 (Shape.Idx.ofFin p))) = _
  rw [e]

/-- The self-map of the positions by which the host sorts them. -/
def sigma (idx : IVec S64x1 32) : Fin 64 → Fin 64 :=
  Cert.LibSortedTake.perm comparator_i32_i32_d0 (keys idx) (iotaInDim S64 32 0)

theorem sigma_injective (idx : IVec S64x1 32) : Function.Injective (sigma idx) := Cert.LibSortedTake.perm_injective _ _ _
theorem sigma_surjective (idx : IVec S64x1 32) : Function.Surjective (sigma idx) := Cert.LibSortedTake.perm_surjective _ _ _

/-- The sorted positions at p: the word σ p. -/
theorem permT_apply (idx : IVec S64x1 32) (p : Fin 64) :
    permT idx (Shape.Idx.ofFin p) = BitVec.ofNat 32 (sigma idx p).val :=
  Cert.LibSortedTake.argsort_apply comparator_i32_i32_d0 (keys idx) p

attribute [irreducible] sigma

/-- The column the take reads holds σ p at row p: no sorted position is negative, so none is wrapped. -/
theorem posCol_apply (idx : IVec S64x1 32) (p : Fin 64) : posCol idx (ixP p) = BitVec.ofNat 32 (sigma idx p).val := by
  unfold posCol
  refine (bcast_col1 bcast_S64_S64x1_0 _ p).trans ?_
  show Scalar.select (IntOp.cmpi .slt (permT idx (Shape.Idx.ofFin p)) 0#32) _ (permT idx (Shape.Idx.ofFin p)) = _
  rw [permT_apply]
  exact select_nonneg _ (sigma idx p).isLt _

/-- Every sorted position passes the take's range test. -/
theorem inRange_apply (idx : IVec S64x1 32) (j : S64.Idx) : inRange idx j = 1#1 := by
  unfold inRange
  refine Cert.LibSortedTake.reduce_andi_of_all _ _ _ _ (fun i => ?_) rfl j
  obtain ⟨p, rfl⟩ : ∃ p : Fin 64, i = ixP p := ⟨i 0, col_eta i⟩
  show IntOp.andi (IntOp.cmpi .sge (posCol idx (ixP p)) 0#32) (IntOp.cmpi .sle (posCol idx (ixP p)) 63#32) = 1#1
  rw [posCol_apply]
  obtain ⟨k, hk⟩ : ∃ k : Fin 64, sigma idx p = k := ⟨_, rfl⟩
  rw [hk]
  have hk' : (BitVec.ofNat 32 k.val).toNat = k.val := by rw [BitVec.toNat_ofNat]; exact Nat.mod_eq_of_lt (by have := k.isLt; omega)
  have hlt := k.isLt
  have h1 : IntOp.cmpi .sge (BitVec.ofNat 32 k.val) 0#32 = 1#1 :=
    (sge_iff_toNat (a := BitVec.ofNat 32 k.val) (b := 0#32) (by rw [hk']; omega) (by decide)).mpr (by simp)
  have h2 : IntOp.cmpi .sle (BitVec.ofNat 32 k.val) 63#32 = 1#1 :=
    (sle_iff_toNat (a := BitVec.ofNat 32 k.val) (b := 63#32) (by rw [hk']; omega) (by decide)).mpr (by
      rw [hk']; show k.val ≤ 63; omega)
  rw [h1, h2]
  rfl

/-- The taken table at p: the clamped word of row σ p. -/
theorem sortedT_apply (idx : IVec S64x1 32) (p : Fin 64) :
    sortedT idx (Shape.Idx.ofFin p) = keys idx (Shape.Idx.ofFin (sigma idx p)) := by
  unfold sortedT
  show Scalar.select (inRange idx (Shape.Idx.ofFin p))
    (Host.gather gather_S64_S64x1_S64_n_0_n_n_0_1_1 (keys idx) (posCol idx) (Shape.Idx.ofFin p)) _ = _
  rw [inRange_apply]
  refine (if_pos rfl).trans ?_
  rw [gather_take gather_S64_S64x1_S64_n_0_n_n_0_1_1 rfl rfl rfl rfl (keys idx) (posCol idx) p (by decide)]
  refine congrArg (keys idx) (congrArg Shape.Idx.ofFin (Fin.ext ?_))
  show min (posCol idx (ixP p)).toInt.toNat (64 - 1) = (sigma idx p).val
  rw [posCol_apply]
  obtain ⟨k, hk⟩ : ∃ k : Fin 64, sigma idx p = k := ⟨_, rfl⟩
  rw [hk, toInt_ofNat_small _ (by have := k.isLt; omega), Int.toNat_natCast]
  have := k.isLt
  omega

/-! ## The tables the region reads -/

variable (m : (ℓ : Loc nD τ sig) → Buf (Elt F) ℓ)

/-- The launch memory's index column. -/
abbrev idxCol : IVec S64x1 32 := m (((0 : Dev nD) : Thread nD τ).loc main_arg3)

theorem tbl0_apply (p : Fin 64) : tbl m 0 (Shape.Idx.ofFin p) = BitVec.ofNat 32 (sigma (idxCol m) p).val :=
  (congrFun (tbl0_eq m) _).trans (permT_apply _ p)

theorem tbl1_apply (p : Fin 64) : tbl m 1 (Shape.Idx.ofFin p) = keys (idxCol m) (Shape.Idx.ofFin (sigma (idxCol m) p)) :=
  (congrFun (tbl1_eq m) _).trans (sortedT_apply _ p)

/-- Every word of the first table is below 64. -/
theorem tbl0_lt (x : S64.Idx) : (tbl m 0 x).toNat < 64 := by
  obtain ⟨p, rfl⟩ : ∃ p : Fin 64, x = Shape.Idx.ofFin p := ⟨x 0, Shape.Idx.eq_ofFin x⟩
  rw [tbl0_apply]
  obtain ⟨k, hk⟩ : ∃ k : Fin 64, sigma (idxCol m) p = k := ⟨_, rfl⟩
  rw [hk, BitVec.toNat_ofNat]
  exact lt_of_le_of_lt (Nat.mod_le _ _) k.isLt

/-- Every word of the second table is below 16. -/
theorem tbl1_lt (x : S64.Idx) : (tbl m 1 x).toNat < 16 := by
  obtain ⟨p, rfl⟩ : ∃ p : Fin 64, x = Shape.Idx.ofFin p := ⟨x 0, Shape.Idx.eq_ofFin x⟩
  rw [tbl1_apply, keys_apply]
  exact clip_lt _

/-! ## The launch's side condition -/

/-- Whatever the tables hold, if the first's words are below 64 and the second's below 16 then every block the index
    maps name lies inside its array: batch row below 64 of 64, expert below 16 of 16, column tile below 2 of 2. -/
theorem ok_of_ranges (pf : pre0.Contents (Elt F)) (h0 : ∀ x, (pf 0 x).toNat < 64) (h1 : ∀ x, (pf 1 x).toNat < 16) : ok0 pf := by
  unfold ok0
  have hj : ∀ i : grid0.Coords, (BitVec.ofNat 32 (i 0).val).toNat < 2 := fun i => by
    rw [BitVec.toNat_ofNat]; exact lt_of_le_of_lt (Nat.mod_le _ _) (i 0).isLt
  refine ⟨fun i => ?_, fun i => ?_, fun i => ?_, fun i => ?_⟩
  · obtain ⟨w, hw, e⟩ : ∃ w : BitVec 32, w.toNat < 64 ∧ cc0_transform_0 k0_off1_inb numel1_S1 pf i = ![w.toNat, 0, 0] :=
      ⟨_, h0 _, rfl⟩
    refine ⟨fun a => ?_, Or.inl rfl⟩
    rw [e]
    fin_cases a <;> simp [S1x512x1024, S64x512x1024] <;> omega
  · obtain ⟨w, j, hw, hj', e⟩ : ∃ (w : BitVec 32) (j : Nat), w.toNat < 16 ∧ j < 2 ∧ cc0_transform_1 k0_off1_inb numel1_S1 pf i = ![w.toNat, 0, j] :=
      ⟨_, _, h1 _, hj i, rfl⟩
    refine ⟨fun a => ?_, Or.inl rfl⟩
    rw [e]
    fin_cases a <;> simp [S1x1024x2048, S16x1024x4096] <;> omega
  · obtain ⟨w, j, hw, hj', e⟩ : ∃ (w : BitVec 32) (j : Nat), w.toNat < 16 ∧ j < 2 ∧ cc0_transform_2 k0_off1_inb numel1_S1 pf i = ![w.toNat, 0, j] :=
      ⟨_, _, h1 _, hj i, rfl⟩
    refine ⟨fun a => ?_, Or.inl rfl⟩
    rw [e]
    fin_cases a <;> simp [S1x1x2048, S16x1x4096] <;> omega
  · obtain ⟨w, j, hw, hj', e⟩ : ∃ (w : BitVec 32) (j : Nat), w.toNat < 64 ∧ j < 2 ∧ cc0_transform_3 k0_off1_inb numel1_S1 pf i = ![w.toNat, 0, j] :=
      ⟨_, _, h0 _, hj i, rfl⟩
    refine ⟨fun a => ?_, Or.inl rfl⟩
    rw [e]
    fin_cases a <;> simp [S1x512x2048, S64x512x4096] <;> omega

/-- The launch's side condition holds at the tables the host computes, for every launch memory. -/
theorem ok : Ok m := ok_of_ranges (tbl m) (tbl0_lt m) (tbl1_lt m)

end Cert.Kernel.Tables

end
-- ==== Proof.TableTermsIdeal.lean ====
/-
  The two prefetched tables as terms of the launch memory's index column.

  Before the launch the host clamps the 64 index words into [0, 15] (`keys`), sorts the positions 0 … 63 by their
  clamped word (`permT`: at position p the position the sort puts there), and takes the clamped words through the
  sorted positions (`sortedT`: a take written with its wrap of negative positions and its in-range test, both idle
  for positions that are in 0 … 63).  The region reads exactly these two tables.
-/
import proofs.«402312_j40355512714138_2_alg».proof.Proof.Gen.KernelIdeal.Frame
import proofs.«402312_j40355512714138_2_alg».proof.Proof.LibHostRead
import Idealize.ShloMosaic.Lib.StableHlo.Run

noncomputable section

namespace Cert.KernelIdeal.Tables

open Idealize.ShloMosaic Idealize.ShloMosaic.TcCoe Idealize.SL.Sem Idealize.ShloMosaic.StableHlo
open Cert.KernelIdeal Cert.KernelIdeal.Gen

variable {F : FTy → Type} [FloatOps F]

/-- The index column clamped into [0, 15], as a table of 64 words. -/
def keys (idx : IVec S64x1 32) : IVec S64 32 :=
  minsi (broadcastInDim S64 ![] bcast_S_S64 (constantI S_ 32 15#32))
    (maxsi (broadcastInDim S64 ![] bcast_S_S64 (constantI S_ 32 0#32)) (shapeCast S64 idx shapeCasts_S64x1_S64))

/-- The positions 0 … 63 sorted by their clamped word. -/
def permT (idx : IVec S64x1 32) : IVec S64 32 :=
  (Host.sort2 S64 0 comparator_i32_i32_d0 (keys idx) (iotaInDim S64 32 0)).2

/-- The sorted positions as the column the take reads: a negative position would be wrapped by 64. -/
def posCol (idx : IVec S64x1 32) : IVec S64x1 32 :=
  broadcastInDim S64x1 ![0] bcast_S64_S64x1_0
    (select (cmpi .slt (permT idx) (broadcastInDim S64 ![] bcast_S_S64 (constantI S_ 32 0#32)))
      (addi (permT idx) (broadcastInDim S64 ![] bcast_S_S64 (constantI S_ 32 64#32))) (permT idx))

/-- The take's test that a position lies in 0 … 63. -/
def inRange (idx : IVec S64x1 32) : IVec S64 1 :=
  Host.reduce IntOp.andi
    (andi (cmpi .sge (posCol idx) (broadcastInDim S64x1 ![] bcast_S_S64x1 (constantI S_ 32 0#32)))
      (cmpi .sle (posCol idx) (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- The clamped words taken through the sorted positions. -/
def sortedT (idx : IVec S64x1 32) : IVec S64 32 :=
  select (inRange idx) (Host.gather gather_S64_S64x1_S64_n_0_n_n_0_1_1 (keys idx) (posCol idx))
    (broadcastInDim S64 ![] bcast_S_S64 (constantI S_ 32 2147483648#32))

variable (m : (ℓ : Loc nD τ sig) → Buf (Elt F) ℓ)

/-- The first table the region reads is the sorted positions of the launch memory's index column. -/
theorem tbl0_eq : tbl m 0 = permT (m (((0 : Dev nD) : Thread nD τ).loc main_arg3)) := by
  unfold tbl
  show V m 0 main_v2 = _
  unfold V
  simp only [hostOps0, hostOps0_1, hostOps0_2, hostOps0_3, hostOps0_4, List.flatten_cons, List.flatten_nil, List.append_nil,
    List.cons_append, List.nil_append]
  after_results
  rfl

set_option maxHeartbeats 1000000 in
/-- The second table is the clamped words taken through them.  The line is read in two stages: first up to the
    sort, where the clamped words and the sorted positions are named; then the take, over those two names. -/
theorem tbl1_eq : tbl m 1 = sortedT (m (((0 : Dev nD) : Thread nD τ).loc main_arg3)) := by
  unfold tbl
  show V m 0 main_v3 = _
  unfold V
  rw [show List.flatten [hostOps0, hostOps0_1, hostOps0_2, hostOps0_3, hostOps0_4]
      = (hostOps0 ++ hostOps0_1 ++ hostOps0_2) ++ (hostOps0_3 ++ hostOps0_4 : List (HloOp τ sig (Elt F))) from by
    simp only [List.flatten_cons, List.flatten_nil, List.append_nil, List.append_assoc], Cert.LibHostRead.after_append]
  have hW1 : StableHlo.after (hostOps0 ++ hostOps0_1 ++ hostOps0_2) (fun b => m ((0 : Dev nD), b)) (Proc.devRef .tc main_v1)
      = keys (m (((0 : Dev nD) : Thread nD τ).loc main_arg3)) := by
    simp only [hostOps0, hostOps0_1, hostOps0_2, List.cons_append, List.nil_append]
    after_results
    rfl
  have hW2 : StableHlo.after (hostOps0 ++ hostOps0_1 ++ hostOps0_2) (fun b => m ((0 : Dev nD), b)) (Proc.devRef .tc main_v2)
      = permT (m (((0 : Dev nD) : Thread nD τ).loc main_arg3)) := by
    simp only [hostOps0, hostOps0_1, hostOps0_2, List.cons_append, List.nil_append]
    after_results
    rfl
  generalize StableHlo.after (hostOps0 ++ hostOps0_1 ++ hostOps0_2) (fun b => m ((0 : Dev nD), b)) = W at hW1 hW2 ⊢
  simp only [hostOps0_3, hostOps0_4, List.cons_append, List.nil_append]
  after_results
  simp only [Cert.LibHostRead.ofBuf_toBuf, hW1, hW2]
  unfold sortedT inRange posCol
  rfl

end Cert.KernelIdeal.Tables

end
-- ==== Proof.TablesIdeal.lean ====
/-
  The two prefetched tables read position by position, and the launch's side condition.

  Write `c a` for index word `a` clamped into [0, 15] and `σ` for the self-map of the positions 0 … 63 by which the
  host sorts them (a bijection, whatever the words are).  Then the first table holds, at position p, the word `σ p`,
  and the second holds `c (σ p)`: the take through the sorted positions wraps nothing and drops nothing, because every
  sorted position is in 0 … 63.  So the first table's words are below 64 and the second's below 16, which is all the
  launch asks: each block the index maps name lies inside its array.
-/
import proofs.«402312_j40355512714138_2_alg».proof.Proof.TableTermsIdeal
import proofs.«402312_j40355512714138_2_alg».proof.Proof.LibSortedTake
import Idealize.ShloMosaic.Lib.StableHlo.Predicate
import Idealize.ShloMosaic.Lib.Pipeline.Value

noncomputable section

namespace Cert.KernelIdeal.Tables

open Idealize.ShloMosaic Idealize.ShloMosaic.TcCoe Idealize.SL.Sem Idealize.ShloMosaic.StableHlo
open Idealize.ShloMosaic.StableHlo.Predicate
open Cert.KernelIdeal Cert.KernelIdeal.Gen

variable {F : FTy → Type} [FloatOps F]

/-! ## Words -/

theorem toInt15 : (15#32 : BitVec 32).toInt = 15 := by decide
theorem toInt0 : (0#32 : BitVec 32).toInt = 0 := by decide

/-- A word clamped into [0, 15] is below 16. -/
theorem clip_lt (v : BitVec 32) : (IntOp.minsi 15#32 (IntOp.maxsi 0#32 v)).toNat < 16 := by
  unfold IntOp.minsi IntOp.maxsi
  by_cases hc : v.slt 0#32 = true
  · rw [if_pos hc, if_neg (by decide)]; decide
  · rw [if_neg hc]
    by_cases hd : (15#32 : BitVec 32).slt v = true
    · rw [if_pos hd]; decide
    · rw [if_neg hd]
      simp only [BitVec.slt, toInt0, toInt15, decide_eq_true_eq] at hc hd
      have hv := v.isLt
      unfold BitVec.toInt at hc hd
      split at hc <;> omega

/-- A word already in [0, 15] is its own clamp. -/
theorem clip_id (v : BitVec 32) (h : v.toNat < 16) : IntOp.minsi 15#32 (IntOp.maxsi 0#32 v) = v := by
  have hmax : IntOp.maxsi 0#32 v = v := by
    unfold IntOp.maxsi
    refine if_neg fun hc => ?_
    have := (slt_bool_iff_toNat (a := v) (b := 0#32) (by omega) (by decide)).mp ((ofBool_eq_one_iff _).mpr hc)
    simp at this
  have h15 : (15#32 : BitVec 32).toNat = 15 := rfl
  rw [hmax]
  unfold IntOp.minsi
  refine if_neg fun hc => ?_
  have := (slt_bool_iff_toNat (a := 15#32) (b := v) (by decide) (by omega)).mp ((ofBool_eq_one_iff _).mpr hc)
  omega

/-- A small natural number as a word is not negative: a select on "negative" keeps its last operand. -/
theorem select_nonneg (k : Nat) (hk : k < 64) (v' : BitVec 32) :
    Scalar.select (IntOp.cmpi .slt (BitVec.ofNat 32 k) 0#32) v' (BitVec.ofNat 32 k) = BitVec.ofNat 32 k := by
  refine if_neg fun h => ?_
  have hk' : (BitVec.ofNat 32 k).toNat = k := by rw [BitVec.toNat_ofNat]; exact Nat.mod_eq_of_lt (by omega)
  have := (slt_iff_toNat (a := BitVec.ofNat 32 k) (b := 0#32) (by rw [hk']; omega) (by decide)).mp h
  simp at this

/-- Every index of a [64, 1] column is (its row, 0). -/
theorem col_eta (i : S64x1.Idx) : i = ixP (i 0) := by
  funext b
  match b with
  | ⟨0, _⟩ => rfl
  | ⟨1, _⟩ => exact Subsingleton.elim (α := Fin 1) _ _

/-! ## The tables' terms at a position -/

/-- The clamped word of row p. -/
theorem keys_apply (idx : IVec S64x1 32) (p : Fin 64) :
    keys idx (Shape.Idx.ofFin p) = IntOp.minsi 15#32 (IntOp.maxsi 0#32 (idx (ixP p))) := by
  have e : shapeCast S64 idx shapeCasts_S64x1_S64 (Shape.Idx.ofFin p) = idx (ixP p) :=
    shapeCast_apply idx shapeCasts_S64x1_S64 _ _ (by
      rewrite [Shape.rowMajor_val_two, Shape.rowMajor_val_one]
      show p.val * 1 + 0 = p.val
      omega)
  unfold keys
  show IntOp.minsi 15#32 (IntOp.maxsi 0#32 (shapeCast S64 idx shapeCasts_S64x1_S64 (Shape.Idx.ofFin p))) = _
  rw [e]

/-- The self-map of the positions by which the host sorts them. -/
def sigma (idx : IVec S64x1 32) : Fin 64 → Fin 64 :=
  Cert.LibSortedTake.perm comparator_i32_i32_d0 (keys idx) (iotaInDim S64 32 0)

theorem sigma_injective (idx : IVec S64x1 32) : Function.Injective (sigma idx) := Cert.LibSortedTake.perm_injective _ _ _
theorem sigma_surjective (idx : IVec S64x1 32) : Function.Surjective (sigma idx) := Cert.LibSortedTake.perm_surjective _ _ _

/-- The sorted positions at p: the word σ p. -/
theorem permT_apply (idx : IVec S64x1 32) (p : Fin 64) :
    permT idx (Shape.Idx.ofFin p) = BitVec.ofNat 32 (sigma idx p).val :=
  Cert.LibSortedTake.argsort_apply comparator_i32_i32_d0 (keys idx) p

attribute [irreducible] sigma

/-- The column the take reads holds σ p at row p: no sorted position is negative, so none is wrapped. -/
theorem posCol_apply (idx : IVec S64x1 32) (p : Fin 64) : posCol idx (ixP p) = BitVec.ofNat 32 (sigma idx p).val := by
  unfold posCol
  refine (bcast_col1 bcast_S64_S64x1_0 _ p).trans ?_
  show Scalar.select (IntOp.cmpi .slt (permT idx (Shape.Idx.ofFin p)) 0#32) _ (permT idx (Shape.Idx.ofFin p)) = _
  rw [permT_apply]
  exact select_nonneg _ (sigma idx p).isLt _

/-- Every sorted position passes the take's range test. -/
theorem inRange_apply (idx : IVec S64x1 32) (j : S64.Idx) : inRange idx j = 1#1 := by
  unfold inRange
  refine Cert.LibSortedTake.reduce_andi_of_all _ _ _ _ (fun i => ?_) rfl j
  obtain ⟨p, rfl⟩ : ∃ p : Fin 64, i = ixP p := ⟨i 0, col_eta i⟩
  show IntOp.andi (IntOp.cmpi .sge (posCol idx (ixP p)) 0#32) (IntOp.cmpi .sle (posCol idx (ixP p)) 63#32) = 1#1
  rw [posCol_apply]
  obtain ⟨k, hk⟩ : ∃ k : Fin 64, sigma idx p = k := ⟨_, rfl⟩
  rw [hk]
  have hk' : (BitVec.ofNat 32 k.val).toNat = k.val := by rw [BitVec.toNat_ofNat]; exact Nat.mod_eq_of_lt (by have := k.isLt; omega)
  have hlt := k.isLt
  have h1 : IntOp.cmpi .sge (BitVec.ofNat 32 k.val) 0#32 = 1#1 :=
    (sge_iff_toNat (a := BitVec.ofNat 32 k.val) (b := 0#32) (by rw [hk']; omega) (by decide)).mpr (by simp)
  have h2 : IntOp.cmpi .sle (BitVec.ofNat 32 k.val) 63#32 = 1#1 :=
    (sle_iff_toNat (a := BitVec.ofNat 32 k.val) (b := 63#32) (by rw [hk']; omega) (by decide)).mpr (by
      rw [hk']; show k.val ≤ 63; omega)
  rw [h1, h2]
  rfl

/-- The taken table at p: the clamped word of row σ p. -/
theorem sortedT_apply (idx : IVec S64x1 32) (p : Fin 64) :
    sortedT idx (Shape.Idx.ofFin p) = keys idx (Shape.Idx.ofFin (sigma idx p)) := by
  unfold sortedT
  show Scalar.select (inRange idx (Shape.Idx.ofFin p))
    (Host.gather gather_S64_S64x1_S64_n_0_n_n_0_1_1 (keys idx) (posCol idx) (Shape.Idx.ofFin p)) _ = _
  rw [inRange_apply]
  refine (if_pos rfl).trans ?_
  rw [gather_take gather_S64_S64x1_S64_n_0_n_n_0_1_1 rfl rfl rfl rfl (keys idx) (posCol idx) p (by decide)]
  refine congrArg (keys idx) (congrArg Shape.Idx.ofFin (Fin.ext ?_))
  show min (posCol idx (ixP p)).toInt.toNat (64 - 1) = (sigma idx p).val
  rw [posCol_apply]
  obtain ⟨k, hk⟩ : ∃ k : Fin 64, sigma idx p = k := ⟨_, rfl⟩
  rw [hk, toInt_ofNat_small _ (by have := k.isLt; omega), Int.toNat_natCast]
  have := k.isLt
  omega

/-! ## The tables the region reads -/

variable (m : (ℓ : Loc nD τ sig) → Buf (Elt F) ℓ)

/-- The launch memory's index column. -/
abbrev idxCol : IVec S64x1 32 := m (((0 : Dev nD) : Thread nD τ).loc main_arg3)

theorem tbl0_apply (p : Fin 64) : tbl m 0 (Shape.Idx.ofFin p) = BitVec.ofNat 32 (sigma (idxCol m) p).val :=
  (congrFun (tbl0_eq m) _).trans (permT_apply _ p)

theorem tbl1_apply (p : Fin 64) : tbl m 1 (Shape.Idx.ofFin p) = keys (idxCol m) (Shape.Idx.ofFin (sigma (idxCol m) p)) :=
  (congrFun (tbl1_eq m) _).trans (sortedT_apply _ p)

/-- Every word of the first table is below 64. -/
theorem tbl0_lt (x : S64.Idx) : (tbl m 0 x).toNat < 64 := by
  obtain ⟨p, rfl⟩ : ∃ p : Fin 64, x = Shape.Idx.ofFin p := ⟨x 0, Shape.Idx.eq_ofFin x⟩
  rw [tbl0_apply]
  obtain ⟨k, hk⟩ : ∃ k : Fin 64, sigma (idxCol m) p = k := ⟨_, rfl⟩
  rw [hk, BitVec.toNat_ofNat]
  exact lt_of_le_of_lt (Nat.mod_le _ _) k.isLt

/-- Every word of the second table is below 16. -/
theorem tbl1_lt (x : S64.Idx) : (tbl m 1 x).toNat < 16 := by
  obtain ⟨p, rfl⟩ : ∃ p : Fin 64, x = Shape.Idx.ofFin p := ⟨x 0, Shape.Idx.eq_ofFin x⟩
  rw [tbl1_apply, keys_apply]
  exact clip_lt _

/-! ## The launch's side condition -/

/-- Whatever the tables hold, if the first's words are below 64 and the second's below 16 then every block the index
    maps name lies inside its array: batch row below 64 of 64, expert below 16 of 16, column tile below 2 of 2. -/
theorem ok_of_ranges (pf : pre0.Contents (Elt F)) (h0 : ∀ x, (pf 0 x).toNat < 64) (h1 : ∀ x, (pf 1 x).toNat < 16) : ok0 pf := by
  unfold ok0
  have hj : ∀ i : grid0.Coords, (BitVec.ofNat 32 (i 0).val).toNat < 2 := fun i => by
    rw [BitVec.toNat_ofNat]; exact lt_of_le_of_lt (Nat.mod_le _ _) (i 0).isLt
  refine ⟨fun i => ?_, fun i => ?_, fun i => ?_, fun i => ?_⟩
  · obtain ⟨w, hw, e⟩ : ∃ w : BitVec 32, w.toNat < 64 ∧ cc0_transform_0 k0_off1_inb numel1_S1 pf i = ![w.toNat, 0, 0] :=
      ⟨_, h0 _, rfl⟩
    refine ⟨fun a => ?_, Or.inl rfl⟩
    rw [e]
    fin_cases a <;> simp [S1x512x1024, S64x512x1024] <;> omega
  · obtain ⟨w, j, hw, hj', e⟩ : ∃ (w : BitVec 32) (j : Nat), w.toNat < 16 ∧ j < 2 ∧ cc0_transform_1 k0_off1_inb numel1_S1 pf i = ![w.toNat, 0, j] :=
      ⟨_, _, h1 _, hj i, rfl⟩
    refine ⟨fun a => ?_, Or.inl rfl⟩
    rw [e]
    fin_cases a <;> simp [S1x1024x2048, S16x1024x4096] <;> omega
  · obtain ⟨w, j, hw, hj', e⟩ : ∃ (w : BitVec 32) (j : Nat), w.toNat < 16 ∧ j < 2 ∧ cc0_transform_2 k0_off1_inb numel1_S1 pf i = ![w.toNat, 0, j] :=
      ⟨_, _, h1 _, hj i, rfl⟩
    refine ⟨fun a => ?_, Or.inl rfl⟩
    rw [e]
    fin_cases a <;> simp [S1x1x2048, S16x1x4096] <;> omega
  · obtain ⟨w, j, hw, hj', e⟩ : ∃ (w : BitVec 32) (j : Nat), w.toNat < 64 ∧ j < 2 ∧ cc0_transform_3 k0_off1_inb numel1_S1 pf i = ![w.toNat, 0, j] :=
      ⟨_, _, h0 _, hj i, rfl⟩
    refine ⟨fun a => ?_, Or.inl rfl⟩
    rw [e]
    fin_cases a <;> simp [S1x512x2048, S64x512x4096] <;> omega

/-- The launch's side condition holds at the tables the host computes, for every launch memory. -/
theorem ok : Ok m := ok_of_ranges (tbl m) (tbl0_lt m) (tbl1_lt m)

end Cert.KernelIdeal.Tables

end
-- ==== Proof.IndexMapsIdeal.lean ====
/-
  The grid and the four index maps, at any contents of the two tables.

  The grid is 2 × 64: point t has outer coordinate t / 64 (the column tile j) and inner coordinate t % 64 (the
  position p in the sorted order).  With `r` the first table's word at p and `e` the second's, the blocks are:
  activations (r, 0, 0); weights (e, 0, j); bias (e, 0, j); result (r, 0, j).  A block's coordinate on an axis is its
  index times the block's extent plus the coordinate inside the block.
-/
import proofs.«402312_j40355512714138_2_alg».proof.Proof.Gen.KernelIdeal.Frame
import Idealize.ShloMosaic.Lib.SortFacts
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]

/-! ## The grid -/

theorem N128 : grid0.N = 128 := by decide

/-- Point t's coordinates: (t / 64, t % 64). -/
theorem coords_facts : ∀ t : Fin grid0.N, (grid0.coords t 0).val = t.val / 64 ∧ (grid0.coords t 1).val = t.val % 64 := by
  decide +kernel

/-- The position a point reads the tables at: its inner coordinate. -/
abbrev pos (i : grid0.Coords) : S64.Idx := Shape.Idx.ofFin ⟨(i 1).val, (i 1).isLt⟩

theorem outer_lt (i : grid0.Coords) : (i 0).val < 2 := (i 0).isLt

/-! ## The index maps -/

/-- The first table's word the index maps read at a point: the word at the point's position. -/
theorem at0_eq (pf : pre0.Contents (Elt F)) (i : grid0.Coords) :
    pf.at 0 (Rect.unit (s := S64) ![(Scalar.indexCast (BitVec.ofNat 32 (i 1).val)).toNat] S1.size (k0_off1_inb i)) numel1_S1 = pf 0 (pos i) := by
  show pf 0 _ = pf 0 (pos i)
  refine congrArg (pf 0) ?_
  show ((Rect.unit (s := S64) ![(Scalar.indexCast (BitVec.ofNat 32 (i 1).val)).toNat] S1.size (k0_off1_inb i)).emb _ : S64.Idx) = pos i
  funext a
  apply Fin.ext
  match a with
  | ⟨0, _⟩ =>
    show (BitVec.ofNat 32 (i 1).val).toNat + 1 * 0 = (i 1).val
    rw [BitVec.toNat_ofNat]
    have := (i 1).isLt
    have h64 : grid0.bound 1 = 64 := rfl
    omega

/-- The second table's word likewise. -/
theorem at1_eq (pf : pre0.Contents (Elt F)) (i : grid0.Coords) :
    pf.at 1 (Rect.unit (s := S64) ![(Scalar.indexCast (BitVec.ofNat 32 (i 1).val)).toNat] S1.size (k0_off1_inb i)) numel1_S1 = pf 1 (pos i) := by
  show pf 1 _ = pf 1 (pos i)
  refine congrArg (pf 1) ?_
  show ((Rect.unit (s := S64) ![(Scalar.indexCast (BitVec.ofNat 32 (i 1).val)).toNat] S1.size (k0_off1_inb i)).emb _ : S64.Idx) = pos i
  funext a
  apply Fin.ext
  match a with
  | ⟨0, _⟩ =>
    show (BitVec.ofNat 32 (i 1).val).toNat + 1 * 0 = (i 1).val
    rw [BitVec.toNat_ofNat]
    have := (i 1).isLt
    have h64 : grid0.bound 1 = 64 := rfl
    omega

/-- The outer coordinate as a 32-bit word is itself. -/
theorem outer_word (i : grid0.Coords) : (BitVec.ofNat 32 (i 0).val).toNat = (i 0).val := by
  rw [BitVec.toNat_ofNat]
  have := outer_lt i
  omega

/-- Activations: block (first table's word, 0, 0). -/
theorem tr0_eq (pf : pre0.Contents (Elt F)) (i : grid0.Coords) :
    cc0_transform_0 k0_off1_inb numel1_S1 pf i = ![(pf 0 (pos i)).toNat, 0, 0] := by
  unfold cc0_transform_0
  dsimp only
  rw [at0_eq]
  rfl

/-- Weights: block (second table's word, 0, column tile). -/
theorem tr1_eq (pf : pre0.Contents (Elt F)) (i : grid0.Coords) :
    cc0_transform_1 k0_off1_inb numel1_S1 pf i = ![(pf 1 (pos i)).toNat, 0, (i 0).val] := by
  unfold cc0_transform_1
  dsimp only
  rw [at1_eq, outer_word]
  rfl

/-- Bias: block (second table's word, 0, column tile). -/
theorem tr2_eq (pf : pre0.Contents (Elt F)) (i : grid0.Coords) :
    cc0_transform_2 k0_off1_inb numel1_S1 pf i = ![(pf 1 (pos i)).toNat, 0, (i 0).val] := by
  unfold cc0_transform_2
  dsimp only
  rw [at1_eq, outer_word]
  rfl

/-- Result: block (first table's word, 0, column tile). -/
theorem tr3_eq (pf : pre0.Contents (Elt F)) (i : grid0.Coords) :
    cc0_transform_3 k0_off1_inb numel1_S1 pf i = ![(pf 0 (pos i)).toNat, 0, (i 0).val] := by
  unfold cc0_transform_3
  dsimp only
  rw [at0_eq, outer_word]
  rfl

/-! ## A block's coordinates in its array, at any admissible contents -/

theorem emb0 (a : (pcfg0 (F := F)).Adm) (t : Fin (cfg0 a).N) (y : S1x512x1024.Idx) (d : Fin 3) :
    ((((cfg0 a).win 0).blk t).view.emb y d).val
      = cc0_transform_0 k0_off1_inb numel1_S1 a.1 (grid0.coords t) d * S1x512x1024.size d + 1 * (y d).val := rfl

theorem emb1 (a : (pcfg0 (F := F)).Adm) (t : Fin (cfg0 a).N) (y : S1x1024x2048.Idx) (d : Fin 3) :
    ((((cfg0 a).win 1).blk t).view.emb y d).val
      = cc0_transform_1 k0_off1_inb numel1_S1 a.1 (grid0.coords t) d * S1x1024x2048.size d + 1 * (y d).val := rfl

theorem emb2 (a : (pcfg0 (F := F)).Adm) (t : Fin (cfg0 a).N) (y : S1x1x2048.Idx) (d : Fin 3) :
    ((((cfg0 a).win 2).blk t).view.emb y d).val
      = cc0_transform_2 k0_off1_inb numel1_S1 a.1 (grid0.coords t) d * S1x1x2048.size d + 1 * (y d).val := rfl

theorem emb3 (a : (pcfg0 (F := F)).Adm) (t : Fin (cfg0 a).N) (y : S1x512x2048.Idx) (d : Fin 3) :
    ((((cfg0 a).win 3).blk t).view.emb y d).val
      = cc0_transform_3 k0_off1_inb numel1_S1 a.1 (grid0.coords t) d * S1x512x2048.size d + 1 * (y d).val := rfl

/-- The result window's block index at a point is its index map at the point's coordinates. -/
theorem index3 (a : (pcfg0 (F := F)).Adm) (t : Fin (cfg0 a).N) :
    ((cfg0 a).win 3).index t = cc0_transform_3 k0_off1_inb numel1_S1 a.1 (grid0.coords t) := rfl

/-- When the result window writes back: at the last point, and wherever the next point's block differs. -/
theorem flush3 (a : (pcfg0 (F := F)).Adm) (t : Fin (cfg0 a).N) :
    ((cfg0 a).win 3).flush t = (true && (decide (t.val + 1 = grid0.N)
      || decide (∃ h : t.val + 1 < grid0.N, ((cfg0 a).win 3).index ⟨t.val + 1, h⟩ ≠ ((cfg0 a).win 3).index t))) := rfl

end Cert.KernelIdeal.Blocks

end
-- ==== Proof.BiasArrayIdeal.lean ====
/-
  The bias window's array.  The region stages the bias rows from a [16, 1, 4096] array the host makes of the
  [16, 4096] bias argument by inserting a unit axis; every other host operation before the launch leaves it alone.
-/
import proofs.«402312_j40355512714138_2_alg».proof.Proof.Gen.KernelIdeal.Frame
import Idealize.ShloMosaic.Lib.StableHlo.Run

noncomputable section

namespace Cert.KernelIdeal.Tables

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 8000000 in
/-- As the region finds it, the bias window's array is the bias argument with a unit axis inserted. -/
theorem V_bias (c : Dev nD) :
    V m c main_v4 = shapeCast S16x1x4096 (m ((c : Thread nD τ).loc main_arg2)) shapeCasts_S16x4096_S16x1x4096 := by
  unfold V
  simp only [hostOps0, hostOps0_1, hostOps0_2, hostOps0_3, hostOps0_4, List.flatten_cons, List.flatten_nil, List.append_nil,
    List.cons_append, List.nil_append]
  after_results
  rfl

end Cert.KernelIdeal.Tables

end
-- ==== Proof.BlockReadsIdeal.lean ====
/-
  The blocks a grid point works on, read entry by entry.

  At point t, with r the first table's word at t's position, e the second's, and j the column tile:
  the activations block's entry (0, s, k) is x (r, s, k); the weights block's entry (0, k, u) is w (e, k, 2048 j + u);
  the bias block's entry (0, 0, u) is b (e, 2048 j + u) (the bias array as the region finds it is the bias argument with
  a unit axis inserted); and entry (0, s, u) of the result block sits at (r, s, 2048 j + u) of the result array.
-/
import proofs.«402312_j40355512714138_2_alg».proof.Proof.IndexMapsIdeal
import proofs.«402312_j40355512714138_2_alg».proof.Proof.BiasArrayIdeal

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Tables

variable {F : FTy → Type} [FloatOps F]
variable (m : (ℓ : Loc nD τ sig) → Buf (Elt F) ℓ)

/-- The activations block. -/
theorem x_read (hO : Ok m) (c : Dev nD) (t : Fin (cfgM m hO).N) (s : Fin 512) (k : Fin 1024) (r : Fin 64)
    (hr : (tbl m 0 (pos (grid0.coords t))).toNat = r.val) :
    (iblk m hO c 0 t : Vec F S1x512x1024 .f32) (ix3 0 s k)
      = (m ((c : Thread nD τ).loc main_arg0) : Vec F S64x512x1024 .f32) (ix3 r s k) := by
  show V m c main_arg0 ((((cfgM m hO).win 0).blk t).view.emb (ix3 0 s k)) = _
  rw [V_main_arg0]
  refine congrArg _ ?_
  have e := emb0 (adm m hO) t (ix3 0 s k)
  simp only [tr0_eq] at e
  funext d
  apply Fin.ext
  match d with
  | ⟨0, _⟩ => exact (e 0).trans (by show (tbl m 0 (pos (grid0.coords t))).toNat * 1 + 1 * 0 = r.val; omega)
  | ⟨1, _⟩ => exact (e 1).trans (by show 0 * 512 + 1 * s.val = s.val; omega)
  | ⟨2, _⟩ => exact (e 2).trans (by show 0 * 1024 + 1 * k.val = k.val; omega)

/-- The weights block. -/
theorem w_read (hO : Ok m) (c : Dev nD) (t : Fin (cfgM m hO).N) (k : Fin 1024) (u : Fin 2048) (e : Fin 16) (col : Fin 4096)
    (he : (tbl m 1 (pos (grid0.coords t))).toNat = e.val) (hcol : col.val = (grid0.coords t 0).val * 2048 + u.val) :
    (iblk m hO c 1 t : Vec F S1x1024x2048 .f32) (ix3 0 k u)
      = (m ((c : Thread nD τ).loc main_arg1) : Vec F S16x1024x4096 .f32) (ix3 e k col) := by
  show V m c main_arg1 ((((cfgM m hO).win 1).blk t).view.emb (ix3 0 k u)) = _
  rw [V_main_arg1]
  refine congrArg _ ?_
  have e' := emb1 (adm m hO) t (ix3 0 k u)
  simp only [tr1_eq] at e'
  funext d
  apply Fin.ext
  match d with
  | ⟨0, _⟩ => exact (e' 0).trans (by show (tbl m 1 (pos (grid0.coords t))).toNat * 1 + 1 * 0 = e.val; omega)
  | ⟨1, _⟩ => exact (e' 1).trans (by show 0 * 1024 + 1 * k.val = k.val; omega)
  | ⟨2, _⟩ => exact (e' 2).trans (by show (grid0.coords t 0).val * 2048 + 1 * u.val = col.val; omega)

/-- The bias block. -/
theorem b_read (hO : Ok m) (c : Dev nD) (t : Fin (cfgM m hO).N) (u : Fin 2048) (e : Fin 16) (col : Fin 4096)
    (he : (tbl m 1 (pos (grid0.coords t))).toNat = e.val) (hcol : col.val = (grid0.coords t 0).val * 2048 + u.val) :
    (iblk m hO c 2 t : Vec F S1x1x2048 .f32) (ix3 0 0 u)
      = (m ((c : Thread nD τ).loc main_arg2) : Vec F S16x4096 .f32) (ix2 e col) := by
  have e' := emb2 (adm m hO) t (ix3 0 0 u)
  simp only [tr2_eq] at e'
  have hemb : ((((cfgM m hO).win 2).blk t).view.emb (ix3 0 0 u) : S16x1x4096.Idx) = ix3 e 0 col := by
    funext d
    apply Fin.ext
    match d with
    | ⟨0, _⟩ => exact (e' 0).trans (by show (tbl m 1 (pos (grid0.coords t))).toNat * 1 + 1 * 0 = e.val; omega)
    | ⟨1, _⟩ => exact (e' 1).trans (by show 0 * 1 + 1 * 0 = 0; omega)
    | ⟨2, _⟩ => exact (e' 2).trans (by show (grid0.coords t 0).val * 2048 + 1 * u.val = col.val; omega)
  show V m c main_v4 ((((cfgM m hO).win 2).blk t).view.emb (ix3 0 0 u)) = _
  refine (congrArg (V m c main_v4) hemb).trans ?_
  rw [V_bias]
  exact shapeCast_apply _ shapeCasts_S16x4096_S16x1x4096 (ix3 e 0 col) (ix2 e col) (by
    rw [Shape.rowMajor_val_two, Shape.rowMajor_val_three]
    show e.val * 4096 + col.val = (e.val * 1 + 0) * 4096 + col.val
    omega)

/-- Where an entry of the result block sits in the result array. -/
theorem o_emb (hO : Ok m) (t : Fin (cfgM m hO).N) (s : Fin 512) (u : Fin 2048) (r : Fin 64) (col : Fin 4096)
    (hr : (tbl m 0 (pos (grid0.coords t))).toNat = r.val) (hcol : col.val = (grid0.coords t 0).val * 2048 + u.val) :
    ((((cfgM m hO).win 3).blk t).view.emb (ix3 0 s u) : S64x512x4096.Idx) = ix3 r s col := by
  have e := emb3 (adm m hO) t (ix3 0 s u)
  simp only [tr3_eq] at e
  funext d
  apply Fin.ext
  match d with
  | ⟨0, _⟩ => exact (e 0).trans (by show (tbl m 0 (pos (grid0.coords t))).toNat * 1 + 1 * 0 = r.val; omega)
  | ⟨1, _⟩ => exact (e 1).trans (by show 0 * 512 + 1 * s.val = s.val; omega)
  | ⟨2, _⟩ => exact (e 2).trans (by show (grid0.coords t 0).val * 2048 + 1 * u.val = col.val; omega)

end Cert.KernelIdeal.Blocks

end
-- ==== Proof.Spec.lean ====
/-
  The function both programs compute, over the extended reals.

  Inputs: activations `x` of shape [64, 512, 1024]; per-expert weights `w` of shape [16, 1024, 4096]; per-expert
  bias rows `b` of shape [16, 4096]; one 32-bit index word per batch row, as a [64, 1] column.  Batch row `a` names
  expert `e a`; the result at `(a, s, u)` is the affine layer of that expert followed by a clamp at zero:

      max ( (∑ k, x (a, s, k) * w (e a, k, u)) + b (e a, u) ) 0 .

  Nothing here depends on either program.
-/
import Idealize.ShloMosaic.PureOps.Ideal
import Idealize.ShloMosaic.Lib.ValueIdx

noncomputable section

namespace Cert.Spec

open Idealize.ShloMosaic Idealize.ShloMosaic.ValueIdx
open scoped BigOperators

/-- The expert batch row `a` names: its index word read as a natural number, kept inside the 16 experts. When the
    word is in `[0, 16)` this is the word itself. -/
def expertOf (index : (⟨2, ![64, 1]⟩ : Shape).Idx → BitVec 32) (a : Fin 64) : Fin 16 :=
  ⟨min (index (ix2 a 0)).toNat 15, by omega⟩

theorem expertOf_val (index : (⟨2, ![64, 1]⟩ : Shape).Idx → BitVec 32) (a : Fin 64) (h : (index (ix2 a 0)).toNat < 16) :
    (expertOf index a).val = (index (ix2 a 0)).toNat := by
  show min (index (ix2 a 0)).toNat 15 = _
  omega

/-- The zero the clamp compares against: the float word `0x00000000`, left as a word. -/
abbrev zero : EReal := FloatOps.ofBits (F := Ideal) .f32 0x00000000#32

/-- One entry of the result, from the coordinates. -/
def entry (x : (⟨3, ![64, 512, 1024]⟩ : Shape).Idx → EReal) (w : (⟨3, ![16, 1024, 4096]⟩ : Shape).Idx → EReal)
    (b : (⟨2, ![16, 4096]⟩ : Shape).Idx → EReal) (e : Fin 64 → Fin 16) (a : Fin 64) (s : Fin 512) (u : Fin 4096) : EReal :=
  max ((∑ k : Fin 1024, x (ix3 a s k) * w (ix3 (e a) k u)) + b (ix2 (e a) u)) zero

/-- The whole result array. -/
def out (x : (⟨3, ![64, 512, 1024]⟩ : Shape).Idx → EReal) (w : (⟨3, ![16, 1024, 4096]⟩ : Shape).Idx → EReal)
    (b : (⟨2, ![16, 4096]⟩ : Shape).Idx → EReal) (e : Fin 64 → Fin 16) : (⟨3, ![64, 512, 4096]⟩ : Shape).Idx → EReal :=
  fun j => entry x w b e (j 0) (j 1) (j 2)

theorem out_ix3 (x : (⟨3, ![64, 512, 1024]⟩ : Shape).Idx → EReal) (w : (⟨3, ![16, 1024, 4096]⟩ : Shape).Idx → EReal)
    (b : (⟨2, ![16, 4096]⟩ : Shape).Idx → EReal) (e : Fin 64 → Fin 16) (a : Fin 64) (s : Fin 512) (u : Fin 4096) :
    out x w b e (ix3 a s u) = entry x w b e a s u := rfl

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Body.lean ====
/-
  The kernel body at one grid point: what it leaves in the output block, and that block's entries.
-/
import proofs.«402312_j40355512714138_2_alg».proof.Proof.Gen.KernelIdeal.Frame
import proofs.«402312_j40355512714138_2_alg».proof.Proof.Spec
import proofs.«402312_j40355512714138_2_alg».proof.Proof.LibRowOps
import Idealize.ShloMosaic.Lib.Pipeline.Value
import Idealize.ShloMosaic.Lib.Tactic

noncomputable section

namespace Cert.KernelIdeal.Body

open Idealize.ShloMosaic Idealize.ShloMosaic.TcCoe Idealize.ShloMosaic.ValueIdx Idealize.SL.Sem
open Cert.KernelIdeal Cert.KernelIdeal.Gen

variable {F : FTy → Type} [FloatOps F]

open scoped BigOperators

/-- The offsets of every load and of the store: all zero. -/
theorem hz3 : (![0, 0, 0] : Fin 3 → Nat) = fun _ => 0 := funext fun a => by fin_cases a <;> rfl

/-- A `[1, 1, a]` array cast to `[a]` reads, at `i`, the operand at `(0, 0, i)`: both have row-major position `i`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- The body's one store covers the output block, so the block it leaves is that store's value: the body's arithmetic
    applied to the three input blocks. -/
theorem out_A (c : Dev nD) (i : grid0.Coords) (arg4 : Memref sig .tc .vmem S1x512x1024 .f32) (harg4 : arg4.IsWhole)
    (arg5 : Memref sig .tc .vmem S1x1024x2048 .f32) (harg5 : arg5.IsWhole) (arg6 : Memref sig .tc .vmem S1x1x2048 .f32) (harg6 : arg6.IsWhole)
    (arg7 : Memref sig .tc .vmem S1x512x2048 .f32) (harg7 : arg7.IsWhole)
    (x0 : Vec F S1x512x1024 .f32) (x1 : Vec F S1x1024x2048 .f32) (x2 : Vec F S1x1x2048 .f32)
    (xt0 : TbBuf0 (F := F) c tbM0_0) (xt1 : TbBuf0 (F := F) c tbM0_1) :
    out0_A_3 c i arg4 harg4 arg5 harg5 arg6 harg6 arg7 harg7 x0 x1 x2 xt0 xt1 = k0_pay1 x0 x1 x2 := by
  -- the one piece is the whole block, so what is read back over it is that piece's payload
  unfold out0_A_3
  rw [View.read_writes_eq_canon _ _ _ (cover0_A_3 c i arg4 harg4 arg5 harg5 arg6 harg6 arg7 harg7 x0 x1 x2 xt0 xt1)]
  unfold kernelRun0_A
  dsimp only
  rw [View.canon_unit_zero hz3]
  -- each of the three loads reads a whole block at offset zero: the block's contents themselves
  simp only [View.readAt_eq_ld, harg4.read_unread, harg5.read_unread, harg6.read_unread,
    View.ld_unit_zero (S := S1x512x1024) hz3, View.ld_unit_zero (S := S1x1024x2048) hz3, View.ld_unit_zero (S := S1x1x2048) hz3]

/-- The body's arithmetic at entry (0, s, u) of the block: the row of the activation block against column u of the
    weight block, plus the bias entry, clamped at zero. -/
theorem pay_apply (x0 : Vec Ideal S1x512x1024 .f32) (x1 : Vec Ideal S1x1024x2048 .f32) (x2 : Vec Ideal S1x1x2048 .f32)
    (s : Fin 512) (u : Fin 2048) :
    k0_pay1 (F := Ideal) x0 x1 x2 (ix3 0 s u)
      = max ((∑ k : Fin 1024, x0 (ix3 0 s k) * x1 (ix3 0 k u)) + x2 (ix3 0 0 u)) Cert.Spec.zero := by
  unfold k0_pay1
  -- the closing cast adds a unit axis: entry (0, s, u) is entry (s, u) of the clamped block
  refine (shapeCast_ab_1ab_apply _ shapeCasts_S512x2048_S1x512x2048 0 s u).trans ?_
  -- the clamp is entrywise, against a block that is zero everywhere
  refine (maximumf_apply _ _ _).trans ?_
  refine congrArg₂ max ?_ rfl
  -- the affine layer at (s, u): row s of the activations (rounding is the identity over the extended reals, and the
  -- opening cast drops the unit axis) against column u of the weights, plus the bias entry u
  refine (Cert.LibRowOps.layer_apply dot_S512x1024_S1024x2048_S512x2048_1_0_0_1_n_n rfl _ _ _ _ _ s u
    (fun k => x0 (ix3 0 s k)) (fun k => shapeCast_1ab_ab_apply x0 shapeCasts_S1x512x1024_S512x1024 s k)).trans ?_
  refine congrArg₂ (· + ·) (Finset.sum_congr rfl fun k _ => congrArg (x0 (ix3 0 s k) * ·) ?_) ?_
  · -- the weights' cast drops the unit axis
    exact shapeCast_1ab_ab_apply x1 shapeCasts_S1x1024x2048_S1024x2048 k u
  · -- the bias's cast drops both unit axes
    exact shapeCast_11a_a_apply x2 shapeCasts_S1x1x2048_S2048 u

end Cert.KernelIdeal.Body

end
-- ==== Proof.FinalIdeal.lean ====
/-
  The kernel's result array.

  Point t of the grid, at position p and column tile j, works on batch row r = σ p, where σ is the host's sorting of
  the positions, and on the expert that row's index word names; it leaves in block (r, 0, j) of the result the affine
  layer of that expert applied to row r's activations, clamped at zero, on columns 2048 j … 2048 j + 2047: exactly the
  specification's entries there.  σ is onto, so every batch row is some point's, and it is one-to-one, so two
  consecutive points never work on the same block and every point writes its block back.  Hence the result array ends
  holding the specification.
-/
import proofs.«402312_j40355512714138_2_alg».proof.Proof.TablesIdeal
import proofs.«402312_j40355512714138_2_alg».proof.Proof.BlockReadsIdeal
import proofs.«402312_j40355512714138_2_alg».proof.Proof.Body
import proofs.«402312_j40355512714138_2_alg».proof.Proof.Spec

noncomputable section

namespace Cert.KernelIdeal.Blocks

open Idealize.ShloMosaic Idealize.ShloMosaic.TcCoe Idealize.SL.Sem Idealize.ShloMosaic.ValueIdx
open Idealize.ShloMosaic.Pipeline (Dat)
open Idealize.ShloMosaic.StableHlo.Predicate (ixP)
open Cert.KernelIdeal Cert.KernelIdeal.Gen Cert.KernelIdeal.Tables
open scoped BigOperators

variable (m : (ℓ : Loc nD τ sig) → Buf (Elt Ideal) ℓ)

/-- A point's position as a number below 64. -/
abbrev posFin (i : grid0.Coords) : Fin 64 := ⟨(i 1).val, (i 1).isLt⟩

/-- Every index word of the launch memory lies in [0, 16). -/
def InRange : Prop := ∀ a : Fin 64, ((idxCol m) (ix2 a 0)).toNat < 16

theorem ixP_eq (k : Fin 64) : (ixP k : S64x1.Idx) = ix2 k 0 :=
  funext fun e => match e with | ⟨0, _⟩ => rfl | ⟨1, _⟩ => rfl

/-- The first table's word at a point: the batch row σ p. -/
theorem row_word (i : grid0.Coords) : (tbl m 0 (pos i)).toNat = (sigma (idxCol m) (posFin i)).val := by
  show (tbl m 0 (Shape.Idx.ofFin (posFin i))).toNat = _
  rw [tbl0_apply]
  obtain ⟨k, hk⟩ : ∃ k : Fin 64, sigma (idxCol m) (posFin i) = k := ⟨_, rfl⟩
  rw [hk, BitVec.toNat_ofNat]
  exact Nat.mod_eq_of_lt (by have := k.isLt; omega)

/-- The second table's word at a point: the expert that batch row names. -/
theorem expert_word (h : InRange m) (i : grid0.Coords) :
    (tbl m 1 (pos i)).toNat = (Cert.Spec.expertOf (idxCol m) (sigma (idxCol m) (posFin i))).val := by
  show (tbl m 1 (Shape.Idx.ofFin (posFin i))).toNat = _
  rw [tbl1_apply, keys_apply]
  obtain ⟨k, hk⟩ : ∃ k : Fin 64, sigma (idxCol m) (posFin i) = k := ⟨_, rfl⟩
  rw [hk, ixP_eq, clip_id _ (h k)]
  exact (Cert.Spec.expertOf_val _ k (h k)).symm

/-- The specification at the launch memory's arguments. -/
def result (c : Dev nD) : Vec Ideal S64x512x4096 .f32 :=
  Cert.Spec.out (m ((c : Thread nD τ).loc main_arg0)) (m ((c : Thread nD τ).loc main_arg1)) (m ((c : Thread nD τ).loc main_arg2))
    (Cert.Spec.expertOf (m ((c : Thread nD τ).loc main_arg3)))

/-- WHAT POINT t WRITES BACK is its block of the specification. -/
theorem flushed_eq (hO : Ok m) (h : InRange m) (c : Dev nD) (t : Fin (cfgM m hO).N) :
    (dats m hO 0 c).flushed 3 t = (((cfgM m hO).win 3).blk t).view.read (Elt Ideal) (result m c) := by
  obtain rfl : c = 0 := Subsingleton.elim _ _
  have eo : outsAt0 m hO 0 t = k0_pay1 (iblk m hO 0 0 t) (iblk m hO 0 1 t) (iblk m hO 0 2 t) :=
    Cert.KernelIdeal.Body.out_A 0 (grid0.coords t) (ms0_0 m hO t) (hs0_0 m hO t) (ms0_1 m hO t) (hs0_1 m hO t)
      (ms0_2 m hO t) (hs0_2 m hO t) (ms0_3 m hO t) (hs0_3 m hO t) (iblk m hO 0 0 t) (iblk m hO 0 1 t) (iblk m hO 0 2 t)
      (tbl m 0) (tbl m 1)
  show ((cfgM m hO).win 3).cut (grid0.coords t) ((dats m hO 0 0).after 3 t) = _
  rw [after0_3, eo]
  refine funext fun (y : S1x512x2048.Idx) => ?_
  obtain ⟨z, s, u, rfl⟩ : ∃ (z : Fin 1) (s : Fin 512) (u : Fin 2048), y = ix3 z s u := ⟨y 0, y 1, y 2, eq_ix3 y⟩
  obtain rfl : z = 0 := Subsingleton.elim _ _
  obtain ⟨r, hr⟩ : ∃ r : Fin 64, sigma (idxCol m) (posFin (grid0.coords t)) = r := ⟨_, rfl⟩
  have h0 : (tbl m 0 (pos (grid0.coords t))).toNat = r.val := by rw [row_word, hr]
  have h1 : (tbl m 1 (pos (grid0.coords t))).toNat = (Cert.Spec.expertOf (idxCol m) r).val := by rw [expert_word m h, hr]
  have hj := outer_lt (grid0.coords t)
  obtain ⟨col, hcol⟩ : ∃ col : Fin 4096, col.val = (grid0.coords t 0).val * 2048 + u.val :=
    ⟨⟨(grid0.coords t 0).val * 2048 + u.val, by have := u.isLt; omega⟩, rfl⟩
  show k0_pay1 (iblk m hO 0 0 t) (iblk m hO 0 1 t) (iblk m hO 0 2 t) (ix3 0 s u)
    = result m 0 ((((cfgM m hO).win 3).blk t).view.emb (ix3 0 s u))
  rw [o_emb m hO t s u r col h0 hcol]
  refine (Cert.KernelIdeal.Body.pay_apply _ _ _ s u).trans ?_
  show _ = Cert.Spec.entry _ _ _ _ r s col
  unfold Cert.Spec.entry
  refine congrArg₂ max (congrArg₂ (· + ·) (Finset.sum_congr rfl fun k _ => congrArg₂ (· * ·) ?_ ?_) ?_) rfl
  · exact x_read m hO 0 t s k r h0
  · exact w_read m hO 0 t k u _ col h1 hcol
  · exact b_read m hO 0 t u _ col h1 hcol

/-! ## Every point writes back, and the blocks cover the array -/

/-- An index of the result array is in point t's block iff each coordinate is in the block's range on its axis. -/
theorem mem_blk3 (a : (pcfg0 (F := Ideal)).Adm) (t : Fin (cfg0 a).N) (i : S64x512x4096.Idx) :
    i ∈ (((cfg0 a).win 3).blk t).view.set ↔ ∀ d : Fin 3, ((cfg0 a).win 3).index t d * S1x512x2048.size d ≤ (i d).val
      ∧ (i d).val < ((cfg0 a).win 3).index t d * S1x512x2048.size d + S1x512x2048.size d := by
  show i ∈ ((View.whole main_v5).slice (((cfg0 a).win 3).rect t)).set ↔ _
  refine (Finset.ext_iff.mp (View.set_slice_whole main_v5 _) i).trans ?_
  exact Rect.mem_set_unit

/-- Two points with the same coordinates are the same point. -/
theorem coords_inj (t t' : Fin grid0.N) (h0 : (grid0.coords t 0).val = (grid0.coords t' 0).val)
    (h1 : (grid0.coords t 1).val = (grid0.coords t' 1).val) : t.val = t'.val := by
  obtain ⟨a0, a1⟩ := coords_facts t
  obtain ⟨b0, b1⟩ := coords_facts t'
  omega

/-- The result window's block index at a point: (batch row, 0, column tile). -/
theorem index3_eq (hO : Ok m) (t : Fin (cfgM m hO).N) :
    ((cfgM m hO).win 3).index t = ![(sigma (idxCol m) (posFin (grid0.coords t))).val, 0, (grid0.coords t 0).val] := by
  have e : ((cfg0 (adm m hO)).win 3).index t = ![(tbl m 0 (pos (grid0.coords t))).toNat, 0, (grid0.coords t 0).val] := by
    rw [index3, tr3_eq]
  rw [row_word] at e
  exact e

/-- EVERY POINT WRITES BACK: the next point's block differs, in its batch row (σ is one-to-one) or in its column tile. -/
theorem flush_all (hO : Ok m) (t : Fin (cfgM m hO).N) : ((cfgM m hO).win 3).flush t = true := by
  rw [flush3 (adm m hO) t]
  by_cases hl : t.val + 1 = grid0.N
  · simp [hl]
  · have htl : t.val < grid0.N := t.isLt
    have hlt : t.val + 1 < grid0.N := by omega
    have hne : ((cfg0 (adm m hO)).win 3).index ⟨t.val + 1, hlt⟩ ≠ ((cfg0 (adm m hO)).win 3).index t := by
      intro heq
      have e' := index3_eq m hO ⟨t.val + 1, hlt⟩
      have e := index3_eq m hO t
      rw [e', e] at heq
      have q0 : (sigma (idxCol m) (posFin (grid0.coords ⟨t.val + 1, hlt⟩))).val = (sigma (idxCol m) (posFin (grid0.coords t))).val :=
        congrFun heq 0
      have q2 : (grid0.coords ⟨t.val + 1, hlt⟩ 0).val = (grid0.coords t 0).val := congrFun heq 2
      have q1 : (grid0.coords ⟨t.val + 1, hlt⟩ 1).val = (grid0.coords t 1).val :=
        congrArg Fin.val (sigma_injective (idxCol m) (Fin.ext q0))
      have := coords_inj ⟨t.val + 1, hlt⟩ ⟨t.val, htl⟩ q2 q1
      simp at this
    simp [hl, hlt, hne]

/-- THE BLOCKS COVER THE ARRAY: entry (a, s, col) is in the block of the point at the position σ sends to a, in
    column tile col / 2048. -/
theorem covered (hO : Ok m) (i : S64x512x4096.Idx) :
    ∃ t : Fin (cfgM m hO).N, ((cfgM m hO).win 3).flush t = true ∧ i ∈ (((cfgM m hO).win 3).blk t).view.set := by
  have hi0 : (i 0).val < 64 := (i 0).isLt
  have hi1 : (i 1).val < 512 := (i 1).isLt
  have hi2 : (i 2).val < 4096 := (i 2).isLt
  obtain ⟨p, hp⟩ := sigma_surjective (idxCol m) ⟨(i 0).val, hi0⟩
  have hpl := p.isLt
  have htv : (i 2).val / 2048 * 64 + p.val < grid0.N := by rw [N128]; omega
  refine ⟨⟨(i 2).val / 2048 * 64 + p.val, htv⟩, flush_all m hO _, ?_⟩
  obtain ⟨c0, c1⟩ := coords_facts ⟨(i 2).val / 2048 * 64 + p.val, htv⟩
  have c0' : (grid0.coords ⟨(i 2).val / 2048 * 64 + p.val, htv⟩ 0).val = (i 2).val / 2048 := by
    rw [c0]; show ((i 2).val / 2048 * 64 + p.val) / 64 = _; omega
  have c1' : posFin (grid0.coords ⟨(i 2).val / 2048 * 64 + p.val, htv⟩) = p := by
    apply Fin.ext
    show (grid0.coords ⟨(i 2).val / 2048 * 64 + p.val, htv⟩ 1).val = p.val
    rw [c1]; show ((i 2).val / 2048 * 64 + p.val) % 64 = _; omega
  have e := index3_eq m hO ⟨(i 2).val / 2048 * 64 + p.val, htv⟩
  rw [c1', hp, c0'] at e
  rw [mem_blk3 (adm m hO)]
  intro d
  rw [show ((cfg0 (adm m hO)).win 3).index ⟨(i 2).val / 2048 * 64 + p.val, htv⟩ = _ from e]
  match d with
  | ⟨0, _⟩ => show (i 0).val * 1 ≤ (i 0).val ∧ (i 0).val < (i 0).val * 1 + 1; omega
  | ⟨1, _⟩ => show 0 * 512 ≤ (i 1).val ∧ (i 1).val < 0 * 512 + 512; omega
  | ⟨2, _⟩ => show (i 2).val / 2048 * 2048 ≤ (i 2).val ∧ (i 2).val < (i 2).val / 2048 * 2048 + 2048; omega

/-! ## The result array, and the run -/

/-- THE RESULT ARRAY after the run is the specification. -/
theorem final (hO : Ok m) (h : InRange m) (c : Dev nD) : (dats m hO 0 c).arrAt 3 (cfgM m hO).N = result m c :=
  (dats m hO 0 c).arrAt_eq_of_cover 3 (result m c) (fun t _ => flushed_eq m hO h c t) (covered m hO)

/-- The run, read: the result array at the specification, the four arguments unchanged. -/
theorem run (hO : Ok m) (h : InRange m) (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hp c => ⟨((hp c).1 3).trans (final m hO h c),
      ((hp c).1 0).trans (((dats m hO 0 c).arrAt_in 0 rfl _).trans ((A_eq m hO c 0).trans (V_main_arg0 m c))),
      ((hp c).1 1).trans (((dats m hO 0 c).arrAt_in 1 rfl _).trans ((A_eq m hO c 1).trans (V_main_arg1 m c))),
      ((hp c).2 main_arg2 (by decide : main_arg2 ∈ Pipeline.restRefs sig spec0)).trans (V_main_arg2 m c),
      ((hp c).2 main_arg3 (by decide : main_arg3 ∈ Pipeline.restRefs sig spec0)).trans (V_main_arg3 m c)⟩)
    (run_main m ρ hO)

end Cert.KernelIdeal.Blocks

end
-- ==== Proof.RefValue.lean ====
/-
  The reference's result, index by index, is the specification.
-/
import proofs.«402312_j40355512714138_2_alg».proof.Proof.Gen.ReferenceIdeal.Read
import proofs.«402312_j40355512714138_2_alg».proof.Proof.Spec
import Idealize.ShloMosaic.Lib.StableHlo.Predicate

noncomputable section

namespace Cert.RefValue

open Idealize.ShloMosaic Idealize.ShloMosaic.ValueIdx Cert.ReferenceIdeal

open Cert.ReferenceIdeal.Gen Cert.ReferenceIdeal.Read Idealize.ShloMosaic.StableHlo.Predicate
open scoped BigOperators

/-! ## The two gathers read at an index

Both gathers collapse the operand's axis 0 and start it at the index word of the result's row, read signed and kept
inside the 16 experts; every other operand axis is an offset axis and carries the result's own coordinate. -/

/-- The weights' gather: operand [16, 1024, 4096], start indices [64, 1], result [64, 1024, 4096]. -/
abbrev GW : GatherDims S16x1024x4096 S64x1 S64x1024x4096 := gather_S16x1024x4096_S64x1_S64x1024x4096_12_0_n_n_0_1_110244096
/-- The bias rows' gather: operand [16, 4096], start indices [64, 1], result [64, 4096]. -/
abbrev GB : GatherDims S16x4096 S64x1 S64x4096 := gather_S16x4096_S64x1_S64x4096_1_0_n_n_0_1_14096

/-- Result index (a, k, u) of the weights' gather reads its start word at (a, 0): the result's one batch axis is axis 0,
    and the index vector has the one component. -/
theorem gw_si (a : Fin 64) (k : Fin 1024) (u : Fin 4096) :
    GW.siIdx (ix3 a k u) ⟨List.idxOf (0 : Fin 3) GW.startIndexMap, List.idxOf_lt_length_iff.2 (List.mem_singleton.mpr rfl)⟩
      = ix2 a (0 : Fin 1) := by
  funext b
  refine Fin.ext ?_
  match b with
  | ⟨0, _⟩ => rfl
  | ⟨1, _⟩ => rfl

/-- Operand axis 0 (collapsed, start-indexed): the start word, signed, kept at most 16 − 1. -/
theorem gw_axis0 (idx : IVec S64x1 32) (a : Fin 64) (k : Fin 1024) (u : Fin 4096) :
    (GW.operandIdx (ix3 a k u) idx 0).val = min (idx (ix2 a (0 : Fin 1))).toInt.toNat 15 := by
  show GW.start (ix3 a k u) idx 0 + GW.batchCoord (ix3 a k u) 0 + GW.offCoord (ix3 a k u) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 3) ∈ GW.startIndexMap from List.mem_singleton.mpr rfl), gw_si]
  rfl

/-- Operand axis 1 (first offset axis): the result's coordinate on axis 1. -/
theorem gw_axis1 (idx : IVec S64x1 32) (a : Fin 64) (k : Fin 1024) (u : Fin 4096) :
    (GW.operandIdx (ix3 a k u) idx 1).val = k.val := by
  show GW.start (ix3 a k u) idx 1 + GW.batchCoord (ix3 a k u) 1 + GW.offCoord (ix3 a k u) 1 = _
  rw [GatherDims.batchCoord_eq_zero _ _ _ List.not_mem_nil, Nat.add_zero]
  unfold GatherDims.start
  rw [dif_neg (show ¬ (1 : Fin 3) ∈ GW.startIndexMap by decide), Nat.zero_add]
  unfold GatherDims.offCoord
  rw [dif_pos (show (1 : Fin 3) ∈ GW.sKept by decide)]
  rfl

/-- Operand axis 2 (second offset axis): the result's coordinate on axis 2. -/
theorem gw_axis2 (idx : IVec S64x1 32) (a : Fin 64) (k : Fin 1024) (u : Fin 4096) :
    (GW.operandIdx (ix3 a k u) idx 2).val = u.val := by
  show GW.start (ix3 a k u) idx 2 + GW.batchCoord (ix3 a k u) 2 + GW.offCoord (ix3 a k u) 2 = _
  rw [GatherDims.batchCoord_eq_zero _ _ _ List.not_mem_nil, Nat.add_zero]
  unfold GatherDims.start
  rw [dif_neg (show ¬ (2 : Fin 3) ∈ GW.startIndexMap by decide), Nat.zero_add]
  unfold GatherDims.offCoord
  rw [dif_pos (show (2 : Fin 3) ∈ GW.sKept by decide)]
  rfl

/-- THE WEIGHTS' GATHER at (a, k, u): the operand at (row a's start word kept inside the experts, k, u). -/
theorem gatherW_apply {α : Type} (x : S16x1024x4096.Idx → α) (idx : IVec S64x1 32) (a : Fin 64) (k : Fin 1024) (u : Fin 4096) :
    Host.gather GW x idx (ix3 a k u)
      = x (ix3 (⟨min (idx (ix2 a (0 : Fin 1))).toInt.toNat 15, by omega⟩ : Fin 16) k u) := by
  unfold Host.gather
  congr 1
  funext c
  refine Fin.ext ?_
  match c with
  | ⟨0, _⟩ => exact gw_axis0 idx a k u
  | ⟨1, _⟩ => exact gw_axis1 idx a k u
  | ⟨2, _⟩ => exact gw_axis2 idx a k u

/-- Result index (a, u) of the bias rows' gather reads its start word at (a, 0). -/
theorem gb_si (a : Fin 64) (u : Fin 4096) :
    GB.siIdx (ix2 a u) ⟨List.idxOf (0 : Fin 2) GB.startIndexMap, List.idxOf_lt_length_iff.2 (List.mem_singleton.mpr rfl)⟩
      = ix2 a (0 : Fin 1) := by
  funext b
  refine Fin.ext ?_
  match b with
  | ⟨0, _⟩ => rfl
  | ⟨1, _⟩ => rfl

/-- Operand axis 0 (collapsed, start-indexed): the start word, signed, kept at most 16 − 1. -/
theorem gb_axis0 (idx : IVec S64x1 32) (a : Fin 64) (u : Fin 4096) :
    (GB.operandIdx (ix2 a u) idx 0).val = min (idx (ix2 a (0 : Fin 1))).toInt.toNat 15 := by
  show GB.start (ix2 a u) idx 0 + GB.batchCoord (ix2 a u) 0 + GB.offCoord (ix2 a u) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ GB.startIndexMap from List.mem_singleton.mpr rfl), gb_si]
  rfl

/-- Operand axis 1 (the offset axis): the result's coordinate on axis 1. -/
theorem gb_axis1 (idx : IVec S64x1 32) (a : Fin 64) (u : Fin 4096) :
    (GB.operandIdx (ix2 a u) idx 1).val = u.val := by
  show GB.start (ix2 a u) idx 1 + GB.batchCoord (ix2 a u) 1 + GB.offCoord (ix2 a u) 1 = _
  rw [GatherDims.batchCoord_eq_zero _ _ _ List.not_mem_nil, Nat.add_zero]
  unfold GatherDims.start
  rw [dif_neg (show ¬ (1 : Fin 2) ∈ GB.startIndexMap by decide), Nat.zero_add]
  unfold GatherDims.offCoord
  rw [dif_pos (show (1 : Fin 2) ∈ GB.sKept by decide)]
  rfl

/-- THE BIAS ROWS' GATHER at (a, u): the operand at (row a's start word kept inside the experts, u). -/
theorem gatherB_apply {α : Type} (x : S16x4096.Idx → α) (idx : IVec S64x1 32) (a : Fin 64) (u : Fin 4096) :
    Host.gather GB x idx (ix2 a u)
      = x (ix2 (⟨min (idx (ix2 a (0 : Fin 1))).toInt.toNat 15, by omega⟩ : Fin 16) u) := by
  unfold Host.gather
  congr 1
  funext c
  refine Fin.ext ?_
  match c with
  | ⟨0, _⟩ => exact gb_axis0 idx a u
  | ⟨1, _⟩ => exact gb_axis1 idx a u

/-! ## The start words: the wrap of a negative index is not taken -/

/-- A word in [0, 16) is not signed-below zero, so a select on that comparison keeps its last operand. -/
theorem select_slt_zero (v v' : BitVec 32) (hv : v.toNat < 16) :
    Scalar.select (IntOp.cmpi .slt v 0#32) v' v = v := by
  refine if_neg fun h => ?_
  have h0 : (0#32 : BitVec 32).toNat = 0 := rfl
  have := (slt_iff_toNat (a := v) (b := 0#32) (by omega) (by rw [h0]; omega)).mp h
  omega

/-- The column [64, 1] read back through the reshape to [64] and the broadcast to [64, 1] is the column. -/
theorem idx_col (a : Fin 64) : idx_main_v0 (idx_main_v6 (ix2 a (0 : Fin 1))) = ix2 a (0 : Fin 1) :=
  funext fun d => Fin.ext (by match d with | ⟨0, _⟩ => exact Nat.div_one _ | ⟨1, _⟩ => rfl)

/-- The weights' start word of row a is the index word of row a. -/
theorem start6 (index : (⟨S64x1, .i32⟩ : BufTy).Contents (Elt Ideal)) (a : Fin 64) (h : (index (ix2 a 0)).toNat < 16) :
    val_main_v6 (F := Ideal) index (ix2 a (0 : Fin 1)) = index (ix2 a 0) := by
  rw [val_main_v6_apply, val_main_v5_apply, val_main_v2_apply, val_main_v1_apply, val_main_c_apply, val_main_v0_apply, idx_col]
  exact select_slt_zero _ _ h

/-- The bias rows' start word of row a is the index word of row a. -/
theorem start13 (index : (⟨S64x1, .i32⟩ : BufTy).Contents (Elt Ideal)) (a : Fin 64) (h : (index (ix2 a 0)).toNat < 16) :
    val_main_v13 (F := Ideal) index (ix2 a (0 : Fin 1)) = index (ix2 a 0) := by
  rw [val_main_v13_apply, val_main_v12_apply, val_main_v9_apply, val_main_v8_apply, val_main_c_1_apply, val_main_v0_apply]
  show Scalar.select (IntOp.cmpi .slt (index (idx_main_v0 (idx_main_v6 (ix2 a (0 : Fin 1))))) 0#32) _ (index (idx_main_v0 (idx_main_v6 (ix2 a (0 : Fin 1))))) = _
  rw [idx_col]
  exact select_slt_zero _ _ h

/-- A start word equal to row a's index word, that word in [0, 16): read signed and kept at most 15, it names the
    expert the specification names. -/
theorem expert_eq (index : (⟨S64x1, .i32⟩ : BufTy).Contents (Elt Ideal)) (a : Fin 64) (v : BitVec 32)
    (hv : v = index (ix2 a 0)) (h : (index (ix2 a 0)).toNat < 16) :
    (⟨min v.toInt.toNat 15, by omega⟩ : Fin 16) = Cert.Spec.expertOf index a := by
  subst hv
  refine Fin.ext ?_
  show min (index (ix2 a 0)).toInt.toNat 15 = min (index (ix2 a 0)).toNat 15
  rw [toInt_eq_toNat_of_lt (by omega), Int.toNat_natCast]

/-! ## The reference at an index -/

/-- The weights stage at (a, k, u): the weight at (k, u) of the expert row a names. -/
theorem v7_apply (w : (⟨S16x1024x4096, .f32⟩ : BufTy).Contents (Elt Ideal)) (index : (⟨S64x1, .i32⟩ : BufTy).Contents (Elt Ideal))
    (a : Fin 64) (k : Fin 1024) (u : Fin 4096) (h : (index (ix2 a 0)).toNat < 16) :
    val_main_v7 (F := Ideal) w index (ix3 a k u) = w (ix3 (Cert.Spec.expertOf index a) k u) := by
  unfold val_main_v7
  rw [gatherW_apply, expert_eq index a _ (start6 index a h) h]

/-- The bias stage at (a, u): the bias at u of the expert row a names. -/
theorem v14_apply (b : (⟨S16x4096, .f32⟩ : BufTy).Contents (Elt Ideal)) (index : (⟨S64x1, .i32⟩ : BufTy).Contents (Elt Ideal))
    (a : Fin 64) (u : Fin 4096) (h : (index (ix2 a 0)).toNat < 16) :
    val_main_v14 (F := Ideal) b index (ix2 a u) = b (ix2 (Cert.Spec.expertOf index a) u) := by
  unfold val_main_v14
  rw [gatherB_apply, expert_eq index a _ (start13 index a h) h]

/-- With every index word in [0, 16), the reference's last stage is the specification at the experts the words name. -/
theorem ref_eq (x : (⟨S64x512x1024, .f32⟩ : BufTy).Contents (Elt Ideal)) (w : (⟨S16x1024x4096, .f32⟩ : BufTy).Contents (Elt Ideal))
    (b : (⟨S16x4096, .f32⟩ : BufTy).Contents (Elt Ideal)) (index : (⟨S64x1, .i32⟩ : BufTy).Contents (Elt Ideal))
    (hidx : ∀ a : Fin 64, (index (ix2 a 0)).toNat < 16) :
    Cert.ReferenceIdeal.Read.val_main_v19 (F := Ideal) x w b index = Cert.Spec.out x w b (Cert.Spec.expertOf index) := by
  funext j
  obtain ⟨a, s, u, rfl⟩ : ∃ (a : Fin 64) (s : Fin 512) (u : Fin 4096), j = ix3 a s u := ⟨j 0, j 1, j 2, eq_ix3 j⟩
  -- the index maps of the contraction and of the two broadcasts of the bias, at (a, s, u)
  have el : ∀ k : Fin 1024, lidx_main_v15 (ix3 a s u) k = ix3 a s k := fun k => funext fun d => Fin.ext (by
    match d with | ⟨0, _⟩ => rfl | ⟨1, _⟩ => rfl | ⟨2, _⟩ => rfl)
  have er : ∀ k : Fin 1024, ridx_main_v15 (ix3 a s u) k = ix3 a k u := fun k => funext fun d => Fin.ext (by
    match d with | ⟨0, _⟩ => rfl | ⟨1, _⟩ => rfl | ⟨2, _⟩ => rfl)
  have eb : idx_main_v16 (idx_main_v17 (ix3 a s u)) = ix2 a u := funext fun d => Fin.ext (by
    match d with | ⟨0, _⟩ => rfl | ⟨1, _⟩ => rfl)
  rw [Cert.Spec.out_ix3, val_main_v19_apply, val_main_v18_apply, val_main_v15_apply, val_main_v17_apply, val_main_v16_apply,
    val_main_call0_v0_apply, val_main_call0_cst_apply, eb, v14_apply b index a u (hidx a)]
  simp only [el, er, v7_apply w index a _ u (hidx a), Ideal.addf_def, Ideal.maximumf_def]
  rfl

end Cert.RefValue

end
-- ==== Proof.PreDecode.lean ====
/-
  The precondition, decoded: every index word lies in [0, 16).
-/
import proofs.«402312_j40355512714138_2_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A 32-bit word that is at least 0 and below 16 as a signed word is below 16 as an unsigned one: a word that is
    non-negative signed is below 2³¹, so it reads the same signed and unsigned, and the signed bound is the unsigned one. -/
theorem toNat_lt_16 (w : BitVec 32) (h0 : IntOp.cmpi .sge w 0#32 = 1#1) (h16 : IntOp.cmpi .slt w 16#32 = 1#1) :
    w.toNat < 16 := by
  -- signed 0 ≤ w: the top bit of w is clear, w < 2³¹
  have hw : w.toNat < 2 ^ 31 := by
    unfold IntOp.cmpi at h0
    rw [StableHlo.Predicate.ofBool_eq_one_iff] at h0
    simp only [BitVec.sle, decide_eq_true_eq] at h0
    have z : (0#32 : BitVec 32).toInt = 0 := by decide
    rw [z, BitVec.toInt_eq_msb_cond] at h0
    have h32 := w.isLt
    by_contra hc
    have hm : w.msb = true := by
      rw [BitVec.msb_eq_decide]; simp only [decide_eq_true_eq]; omega
    rw [hm] at h0
    simp only [if_true] at h0
    omega
  have h16' : (16#32 : BitVec 32).toNat < 2 ^ 31 := by decide
  have := (StableHlo.Predicate.slt_iff_toNat hw h16').1 h16
  simpa using this

/-- Where the printed precondition is all ones, every index word, read unsigned, is below 16 (it is at least 0 and
    below 16 as a signed word). -/
theorem index_lt_of_pre {F : FTy → Type} [FloatOps F] (x : FVec F S64x512x1024 .f32) (w : FVec F S16x1024x4096 .f32)
    (b : FVec F S16x4096 .f32) (index : IVec S64x1 32)
    (h : Cert.Pre_finite_inputs.fn (F := F) x w b index = fun _ => 1#1) :
    ∀ a : Fin 64, (index (ix2 a 0)).toNat < 16 := by
  intro a
  -- the one element of the printed result
  have e := congrFun h ix0
  dsimp only [Cert.Pre_finite_inputs.fn, Cert.Pre_finite_inputs.fn_part1] at e
  -- the result is a conjunction: its last two conjuncts are the two bounds on the index words
  obtain ⟨e', e16⟩ := IntOp.andi_eq_one.1 (show IntOp.andi _ _ = 1#1 from e)
  obtain ⟨-, e0⟩ := IntOp.andi_eq_one.1 (show IntOp.andi _ _ = 1#1 from e')
  -- each conjunct is an `and` over all index words, so it holds at word (a, 0)
  have h0 := Host.reduce_andi_all _ _ _ _ _ e0 (ix2 a 0)
  have h16 := Host.reduce_andi_all _ _ _ _ _ e16 (ix2 a 0)
  -- the broadcast constants read 0 and 16 there
  exact toNat_lt_16 (index (ix2 a 0)) h0 h16

end Cert.PreDecode

end
-- ==== Proof.lean ====
/-
  The certificate: a routed dense layer with a clamp at zero, computed block by block in expert-sorted order, equals
  its plain gather-and-contract statement over the extended reals.

  Both programs take activations x[64, 512, 1024], expert weights w[16, 1024, 4096], expert bias rows b[16, 4096] and
  one index word per batch row, in [0, 16) by the precondition.  The reference gathers each row's expert weights and
  bias, contracts, adds and clamps at zero.  The kernel clamps the index words, sorts the batch rows by expert, and
  lets grid point (column tile j, position p) compute block (σ p, 0, j) of the result from the weights and bias of the
  expert row σ p names, where σ is the sorting of the positions.  σ is a bijection of the 64 rows whatever the words
  are, so the blocks cover the result, no two consecutive points share a block, and the result array is, entry by entry,

      max ( (∑ k, x (a, s, k) * w (e a, k, u)) + b (e a, u) ) 0     with e a the expert row a names

  — the same finite sum of the same products on both sides, so no finiteness of the float inputs is used.  The two
  prefetched tables (σ as words; the experts in sorted order) are in range for EVERY launch memory, because the kernel
  clamps before it sorts: the frames need nothing of the precondition.  The value claim needs the index words in
  [0, 16): a negative word is wrapped by the reference and clamped to 0 by the kernel.

  The ideal pass rewrote nothing, so the idealization claim is trivial.
-/
import proofs.«402312_j40355512714138_2_alg».proof.Defs
import proofs.«402312_j40355512714138_2_alg».proof.Proof.Gen.Kernel
import proofs.«402312_j40355512714138_2_alg».proof.Proof.Gen.Kernel.Skeleton
import proofs.«402312_j40355512714138_2_alg».proof.Proof.Gen.Kernel.Launch
import proofs.«402312_j40355512714138_2_alg».proof.Proof.Gen.Kernel.Points
import proofs.«402312_j40355512714138_2_alg».proof.Proof.Gen.Kernel.Frame
import proofs.«402312_j40355512714138_2_alg».proof.Proof.Gen.KernelIdeal
import proofs.«402312_j40355512714138_2_alg».proof.Proof.Gen.KernelIdeal.Skeleton
import proofs.«402312_j40355512714138_2_alg».proof.Proof.Gen.KernelIdeal.Launch
import proofs.«402312_j40355512714138_2_alg».proof.Proof.Gen.KernelIdeal.Points
import proofs.«402312_j40355512714138_2_alg».proof.Proof.Gen.KernelIdeal.Frame
import proofs.«402312_j40355512714138_2_alg».proof.Proof.Gen.ReferenceIdeal
import proofs.«402312_j40355512714138_2_alg».proof.Proof.Gen.ReferenceIdeal.Run
import proofs.«402312_j40355512714138_2_alg».proof.Proof.Gen.ReferenceIdeal.Read
import proofs.«402312_j40355512714138_2_alg».proof.Proof.Gen.Pre_finite_inputs
import proofs.«402312_j40355512714138_2_alg».proof.Proof.TablesBits
import proofs.«402312_j40355512714138_2_alg».proof.Proof.TablesIdeal
import proofs.«402312_j40355512714138_2_alg».proof.Proof.FinalIdeal
import proofs.«402312_j40355512714138_2_alg».proof.Proof.RefValue
import proofs.«402312_j40355512714138_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and keeps its arguments: its tables are in range for every launch memory. -/
theorem frame_k : Cert.frame_Kernel := fun m ρ _ => Cert.Kernel.Gen.frame m ρ (Cert.Kernel.Tables.ok m)

/-- So does the idealized kernel. -/
theorem frame_ki : Cert.frame_KernelIdeal := fun m ρ _ => Cert.KernelIdeal.Gen.frame m ρ (Cert.KernelIdeal.Tables.ok m)

/-- The reference is a straight line of host operations: it runs, and its run leaves the arguments alone. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both results are the specification at the experts the index words name. -/
theorem algebraic : Cert.algebraic_KernelIdeal_ReferenceIdeal := by
  intro m ρ m' ρ' hpre hagree
  have hin : Cert.KernelIdeal.Blocks.InRange m := fun a => Cert.PreDecode.index_lt_of_pre _ _ _ _ (hpre 0) a
  refine ⟨fun c => Cert.KernelIdeal.Blocks.result m c, Cert.KernelIdeal.Blocks.run m (Cert.KernelIdeal.Tables.ok m) hin ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  obtain rfl : c = 0 := Subsingleton.elim _ _
  exact Cert.RefValue.ref_eq _ _ _ _ hin

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
